-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S_ : Shape := ⟨0, ![]⟩

class Facts : Prop where
  bcast_S_S128x512x8 : S_.BroadcastsInDim S128x512x8 (![] : Fin 0 → Fin S128x512x8.rank)
  reducesTo_S128x512x8_S_d0_1_2 : S128x512x8.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg8
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S3x128x128 .f32) (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x512x8 .f32) (main_arg1 : FVec F S128x512 .f32) (main_arg2 : FVec F S8x128 .f32) (main_arg3 : FVec F S128 .f32) (main_arg4 : FVec F S128x128 .f32) (main_arg5 : FVec F S128 .f32) (main_arg6 : FVec F S3x128x128 .f32) (main_arg7 : FVec F S3x128 .f32) (main_arg8 : FVec F S3x256x128 .f32) (main_arg9 : FVec F S3x128 .f32) (main_arg10 : FVec F S128x128 .f32) (main_arg11 : FVec F S128 .f32) (main_arg12 : FVec F S128x128 .f32) (main_arg13 : FVec F S128 .f32) : IVec S_ 1 :=
  let main_v0 : FVec F S128x512x8 .f32 := Host.absf main_arg0
  let main_cst : FVec F S_ .f32 := constant S_ .f32 0x7F800000#32
  let main_v1 : FVec F S128x512x8 .f32 := broadcastInDim S128x512x8 ![] bcast_S_S128x512x8 main_cst
  let main_v2 : IVec S128x512x8 1 := cmpf .olt main_v0 main_v1
  let main_c : IVec S_ 1 := constantI S_ 1 1#1
  let main_v3 : IVec S_ 1 := (fun x v => Host.reduce IntOp.andi x v reducesTo_S128x512x8_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S128x1x512 : Shape := ⟨3, ![128, 1, 512]⟩
abbrev S128x1x128 : Shape := ⟨3, ![128, 1, 128]⟩
abbrev S1x512x8 : Shape := ⟨3, ![1, 512, 8]⟩
abbrev S1x1x512 : Shape := ⟨3, ![1, 1, 512]⟩
abbrev S1x1x128 : Shape := ⟨3, ![1, 1, 128]⟩
abbrev S512x8 : Shape := ⟨2, ![512, 8]⟩
abbrev S512 : Shape := ⟨1, ![512]⟩
abbrev S512x128 : Shape := ⟨2, ![512, 128]⟩
abbrev S1x128 : Shape := ⟨2, ![1, 128]⟩
abbrev S8x512 : Shape := ⟨2, ![8, 512]⟩
abbrev S512x512 : Shape := ⟨2, ![512, 512]⟩
abbrev S512x1 : Shape := ⟨2, ![512, 1]⟩
abbrev S1x512 : Shape := ⟨2, ![1, 512]⟩
abbrev S1x128x128 : Shape := ⟨3, ![1, 128, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S128x512x8, .f32⟩
  | .hbm, ⟨1, _⟩ => ⟨S128x512, .f32⟩
  | .hbm, ⟨2, _⟩ => ⟨S8x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S3x256x128, .f32⟩
  | .hbm, ⟨9, _⟩ => ⟨S3x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1x512, .f32⟩
  | .hbm, ⟨15, _⟩ => ⟨S128x1x128, .f32⟩
  | .hbm, ⟨16, _⟩ => ⟨S128x128, .f32⟩
  | .local _ .vmem, ⟨0, _⟩ => ⟨S1x512x8, .f32⟩
  | .local _ .vmem, ⟨1, _⟩ => ⟨S1x512x8, .f32⟩
  | .local _ .vmem, ⟨2, _⟩ => ⟨S1x1x512, .f32⟩
  | .local _ .vmem, ⟨3, _⟩ => ⟨S1x1x512, .f32⟩
  | .local _ .vmem, ⟨4, _⟩ => ⟨S8x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S3x128x128, .f32⟩
  | .local _ .vmem, ⟨9, _⟩ => ⟨S3x128, .f32⟩
  | .local _ .vmem, ⟨10, _⟩ => ⟨S3x256x128, .f32⟩
  | .local _ .vmem, ⟨11, _⟩ => ⟨S3x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S1x1x128, .f32⟩
  | .local _ .vmem, ⟨17, _⟩ => ⟨S1x1x128, .f32⟩
  | _, _ => ⟨S128x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128x512_S128x1x512 : S128x512.ShapeCasts S128x1x512
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  reduces_S512x8_S512 : S512x8.Reduces [1] S512
  transposes_S512x8_p1_0_S8x512 : S512x8.Transposes [1, 0] S8x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  concatenates_S512x128_S512x128_S512x256_d1 : Shape.Concatenates [S512x128, S512x128] S512x256 1
  broadcasts_S512x1_S512x128 : S512x1.Broadcasts S512x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x256x128_S1x256x128_1_0_0 : ∀ a, (![1, 0, 0] : Fin 3 → Nat) a + S1x256x128.size a ≤ S3x256x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S3x256x128_S1x256x128_2_0_0 : ∀ a, (![2, 0, 0] : Fin 3 → Nat) a + S1x256x128.size a ≤ S3x256x128.size a
  reduces_S512x128_S128 : S512x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  shapeCasts_S128x1x128_S128x128 : S128x1x128.ShapeCasts S128x128
  dot_S512x8_S8x128_S512x128_1_0_0_1_n_n_wf : DotDims.WF S512x8 S8x128 S512x128 [1] [0] [0] [1] [] []
  dot_S512x128_S128x128_S512x128_1_0_0_1_n_n_wf : DotDims.WF S512x128 S128x128 S512x128 [1] [0] [0] [1] [] []
  dot_S512x8_S8x512_S512x512_1_0_0_1_n_n_wf : DotDims.WF S512x8 S8x512 S512x512 [1] [0] [0] [1] [] []
  dot_S512x512_S512x128_S512x128_1_0_0_1_n_n_wf : DotDims.WF S512x512 S512x128 S512x128 [1] [0] [0] [1] [] []
  dot_S512x256_S256x128_S512x128_1_0_0_1_n_n_wf : DotDims.WF S512x256 S256x128 S512x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8.size a ≤ S128x512x8.size a
  hwx0_0 : ∀ i : grid0.Coords, EltTy.bits .f32 = 32 ∨ (Rect.block (s := S128x512x8) S1x512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S128x1x512.size a
  hwx0_1 : ∀ i : grid0.Coords, EltTy.bits .f32 = 32 ∨ (Rect.block (s := S128x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x128x128.size a
  hwx0_6 : ∀ i : grid0.Coords, EltTy.bits .f32 = 32 ∨ (Rect.block (s := S3x128x128) S3x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128.size a ≤ S3x128.size a
  hwx0_7 : ∀ i : grid0.Coords, EltTy.bits .f32 = 32 ∨ (Rect.block (s := S3x128) S3x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256x128.size a ≤ S3x256x128.size a
  hwx0_8 : ∀ i : grid0.Coords, EltTy.bits .f32 = 32 ∨ (Rect.block (s := S3x256x128) S3x256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x128.size a ≤ S128x1x128.size a
  hwx0_14 : ∀ i : grid0.Coords, EltTy.bits .f32 = 32 ∨ (Rect.block (s := S128x1x128) S1x1x128.size (cc0_transform_14 i) (hinb0_14 i)).WholeWords (EltTy.packing .f32)

variable [Facts₀]

def dot_S512x8_S8x128_S512x128_1_0_0_1_n_n : DotDims S512x8 S8x128 S512x128 where
  lhsContracting := [1]
  rhsContracting := [0]
  lhsNonContracting := [0]
  rhsNonContracting := [1]
  lhsBatch := []
  rhsBatch := []
  wf := dot_S512x8_S8x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S1x512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S1x1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x512x8 : Shape := ⟨3, ![128, 512, 8]⟩
abbrev S128x512 : Shape := ⟨2, ![128, 512]⟩
abbrev S8x128 : Shape := ⟨2, ![8, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x256x128 : Shape := ⟨3, ![3, 256, 128]⟩
abbrev S128x512x128 : Shape := ⟨3, ![128, 512, 128]⟩
abbrev S1x1x128 : Shape := ⟨3, ![1, 1, 128]⟩
abbrev S_ : Shape := ⟨0, ![]⟩
abbrev S128x512x1 : Shape := ⟨3, ![128, 512, 1]⟩
abbrev S128x1x512 : Shape := ⟨3, ![128, 1, 512]⟩
abbrev S128x512x512 : Shape := ⟨3, ![128, 512, 512]⟩
abbrev S1x128x128 : Shape := ⟨3, ![1, 128, 128]⟩
abbrev S1x128 : Shape := ⟨2, ![1, 128]⟩
abbrev S128x512x256 : Shape := ⟨3, ![128, 512, 256]⟩
abbrev S1x256x128 : Shape := ⟨3, ![1, 256, 128]⟩
abbrev S256x128 : Shape := ⟨2, ![256, 128]⟩

abbrev nBuf : Space → Nat
  | .hbm => 162
  | .vmem => 0
  | .smem => 0
  | _ => 0

abbrev hbmTy0_0 (i : Nat) : BufTy := match i % 128 with
  | 0 => ⟨S128x512x8, .f32⟩
  | 1 => ⟨S128x512, .f32⟩
  | 2 => ⟨S8x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S3x256x128, .f32⟩
  | 9 => ⟨S3x128, .f32⟩
  | 10 => ⟨S128x128, .f32⟩
  | 11 => ⟨S128, .f32⟩
  | 12 => ⟨S128x128, .f32⟩
  | 13 => ⟨S128, .f32⟩
  | 14 => ⟨S128x512x128, .f32⟩
  | 15 => ⟨S1x1x128, .f32⟩
  | 16 => ⟨S128x512x128, .f32⟩
  | 17 => ⟨S128x512x128, .f32⟩
  | 18 => ⟨S_, .f32⟩
  | 19 => ⟨S128x512x128, .f32⟩
  | 20 => ⟨S128x512x128, .f32⟩
  | 21 => ⟨S128x512x128, .f32⟩
  | 22 => ⟨S1x1x128, .f32⟩
  | 23 => ⟨S128x512x128, .f32⟩
  | 24 => ⟨S128x512x128, .f32⟩
  | 25 => ⟨S_, .f32⟩
  | 26 => ⟨S128x512x128, .f32⟩
  | 27 => ⟨S128x512x128, .f32⟩
  | 28 => ⟨S128x512x8, .f32⟩
  | 29 => ⟨S_, .f32⟩
  | 30 => ⟨S128x512, .f32⟩
  | 31 => ⟨S128x512x1, .f32⟩
  | 32 => ⟨S128x1x512, .f32⟩
  | 33 => ⟨S128x512x512, .f32⟩
  | 34 => ⟨S128x512x512, .f32⟩
  | 35 => ⟨S128x512x512, .f32⟩
  | 36 => ⟨S128x512x512, .f32⟩
  | 37 => ⟨S_, .f32⟩
  | 38 => ⟨S128x512x512, .f32⟩
  | 39 => ⟨S128x512x512, .f32⟩
  | 40 => ⟨S128x512x512, .f32⟩
  | 41 => ⟨S128x512x512, .f32⟩
  | 42 => ⟨S128x1x512, .f32⟩
  | 43 => ⟨S_, .f32⟩
  | 44 => ⟨S128x1x512, .f32⟩
  | 45 => ⟨S128x1x512, .i1⟩
  | 46 => ⟨S_, .f32⟩
  | 47 => ⟨S_, .f32⟩
  | 48 => ⟨S128x1x512, .f32⟩
  | 49 => ⟨S128x1x512, .f32⟩
  | 50 => ⟨S128x1x512, .f32⟩
  | 51 => ⟨S128x1x512, .f32⟩
  | 52 => ⟨S128x512x512, .f32⟩
  | 53 => ⟨S128x512x512, .f32⟩
  | 54 => ⟨S_, .f32⟩
  | 55 => ⟨S128x512, .f32⟩
  | 56 => ⟨S_, .f32⟩
  | 57 => ⟨S128x512, .f32⟩
  | 58 => ⟨S128x512, .f32⟩
  | 59 => ⟨S128x512x1, .f32⟩
  | 60 => ⟨S128x512x512, .f32⟩
  | 61 => ⟨S128x512x512, .f32⟩
  | 62 => ⟨S128x512x512, .f32⟩
  | 63 => ⟨S_, .f32⟩
  | 64 => ⟨S128x512, .f32⟩
  | 65 => ⟨S128x512x1, .f32⟩
  | 66 => ⟨S128x512x512, .f32⟩
  | 67 => ⟨S128x512x512, .f32⟩
  | 68 => ⟨S128x512x1, .f32⟩
  | 69 => ⟨S1x128x128, .f32⟩
  | 70 => ⟨S128x128, .f32⟩
  | 71 => ⟨S128x512x128, .f32⟩
  | 72 => ⟨S1x128, .f32⟩
  | 73 => ⟨S128, .f32⟩
  | 74 => ⟨S1x1x128, .f32⟩
  | 75 => ⟨S128x512x128, .f32⟩
  | 76 => ⟨S128x512x128, .f32⟩
  | 77 => ⟨S_, .f32⟩
  | 78 => ⟨S128x512x128, .f32⟩
  | 79 => ⟨S128x512x128, .f32⟩
  | 80 => ⟨S128x512x128, .f32⟩
  | 81 => ⟨S128x512x256, .f32⟩
  | 82 => ⟨S1x256x128, .f32⟩
  | 83 => ⟨S256x128, .f32⟩
  | 84 => ⟨S128x512x128, .f32⟩
  | 85 => ⟨S1x128, .f32⟩
  | 86 => ⟨S128, .f32⟩
  | 87 => ⟨S1x1x128, .f32⟩
  | 88 => ⟨S128x512x128, .f32⟩
  | 89 => ⟨S128x512x128, .f32⟩
  | 90 => ⟨S_, .f32⟩
  | 91 => ⟨S128x512x128, .f32⟩
  | 92 => ⟨S128x512x128, .f32⟩
  | 93 => ⟨S128x512x128, .f32⟩
  | 94 => ⟨S128x512x128, .f32⟩
  | 95 => ⟨S1x128x128, .f32⟩
  | 96 => ⟨S128x128, .f32⟩
  | 97 => ⟨S128x512x128, .f32⟩
  | 98 => ⟨S1x128, .f32⟩
  | 99 => ⟨S128, .f32⟩
  | 100 => ⟨S1x1x128, .f32⟩
  | 101 => ⟨S128x512x128, .f32⟩
  | 102 => ⟨S128x512x128, .f32⟩
  | 103 => ⟨S_, .f32⟩
  | 104 => ⟨S128x512x128, .f32⟩
  | 105 => ⟨S128x512x128, .f32⟩
  | 106 => ⟨S128x512x128, .f32⟩
  | 107 => ⟨S128x512x256, .f32⟩
  | 108 => ⟨S1x256x128, .f32⟩
  | 109 => ⟨S256x128, .f32⟩
  | 110 => ⟨S128x512x128, .f32⟩
  | 111 => ⟨S1x128, .f32⟩
  | 112 => ⟨S128, .f32⟩
  | 113 => ⟨S1x1x128, .f32⟩
  | 114 => ⟨S128x512x128, .f32⟩
  | 115 => ⟨S128x512x128, .f32⟩
  | 116 => ⟨S_, .f32⟩
  | 117 => ⟨S128x512x128, .f32⟩
  | 118 => ⟨S128x512x128, .f32⟩
  | 119 => ⟨S128x512x128, .f32⟩
  | 120 => ⟨S128x512x128, .f32⟩
  | 121 => ⟨S1x128x128, .f32⟩
  | 122 => ⟨S128x128, .f32⟩
  | 123 => ⟨S128x512x128, .f32⟩
  | 124 => ⟨S1x128, .f32⟩
  | 125 => ⟨S128, .f32⟩
  | 126 => ⟨S1x1x128, .f32⟩
  | 127 => ⟨S128x512x128, .f32⟩
  | _ => ⟨S128x512x8, .f32⟩

abbrev hbmTy0_1 (i : Nat) : BufTy := match i % 128 with
  | 0 => ⟨S128x512x128, .f32⟩
  | 1 => ⟨S_, .f32⟩
  | 2 => ⟨S128x512x128, .f32⟩
  | 3 => ⟨S128x512x128, .f32⟩
  | 4 => ⟨S128x512x128, .f32⟩
  | 5 => ⟨S128x512x256, .f32⟩
  | 6 => ⟨S1x256x128, .f32⟩
  | 7 => ⟨S256x128, .f32⟩
  | 8 => ⟨S128x512x128, .f32⟩
  | 9 => ⟨S1x128, .f32⟩
  | 10 => ⟨S128, .f32⟩
  | 11 => ⟨S1x1x128, .f32⟩
  | 12 => ⟨S128x512x128, .f32⟩
  | 13 => ⟨S128x512x128, .f32⟩
  | 14 => ⟨S_, .f32⟩
  | 15 => ⟨S128x512x128, .f32⟩
  | 16 => ⟨S128x512x128, .f32⟩
  | 17 => ⟨S128x512x128, .f32⟩
  | 18 => ⟨S128x512x128, .f32⟩
  | 19 => ⟨S128x512x128, .f32⟩
  | 20 => ⟨S128x512x128, .f32⟩
  | 21 => ⟨S_, .f32⟩
  | 22 => ⟨S128x128, .f32⟩
  | 23 => ⟨S128x128, .f32⟩
  | 24 => ⟨S1x128, .f32⟩
  | 25 => ⟨S128x128, .f32⟩
  | 26 => ⟨S128x128, .f32⟩
  | 27 => ⟨S_, .f32⟩
  | 28 => ⟨S128x128, .f32⟩
  | 29 => ⟨S128x128, .f32⟩
  | 30 => ⟨S128x128, .f32⟩
  | 31 => ⟨S1x128, .f32⟩
  | 32 => ⟨S128x128, .f32⟩
  | 33 => ⟨S128x128, .f32⟩
  | _ => ⟨S128x512x8, .f32⟩

abbrev hbmTy (i : Nat) : BufTy := match i / 128 with
  | 0 => hbmTy0_0 i
  | 1 => hbmTy0_1 i
  | _ => ⟨S128x512x8, .f32⟩

abbrev bufTy : (tb : Table) → Fin (tcTables nBuf tb) → BufTy
  | .hbm, ⟨i, _⟩ => hbmTy i
  | _, _ => ⟨S128x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_cst : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call4_cst : Ref sig .tc := ⟨.hbm, 90, rfl⟩
abbrev main_call4_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call5_cst : Ref sig .tc := ⟨.hbm, 103, rfl⟩
abbrev main_call5_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call6_cst : Ref sig .tc := ⟨.hbm, 116, rfl⟩
abbrev main_call6_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call7_cst : Ref sig .tc := ⟨.hbm, 129, rfl⟩
abbrev main_call7_v0 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call8_cst : Ref sig .tc := ⟨.hbm, 142, rfl⟩
abbrev main_call8_v0 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_7 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call9_cst : Ref sig .tc := ⟨.hbm, 155, rfl⟩
abbrev main_call9_v0 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  bcast_S_S128x512x128 : S_.BroadcastsInDim S128x512x128 (![] : Fin 0 → Fin S128x512x128.rank)
  reducesTo_S128x512x8_S128x512_d2 : S128x512x8.ReducesTo [2] S128x512
  h_S_ : 0 < S_.numel
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  bcast_S_S128x1x512 : S_.BroadcastsInDim S128x1x512 (![] : Fin 0 → Fin S128x1x512.rank)
  reducesTo_S128x512x512_S128x512_d2 : S128x512x512.ReducesTo [2] S128x512
  bcast_S_S128x512 : S_.BroadcastsInDim S128x512 (![] : Fin 0 → Fin S128x512.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  concatenates_S128x512x128_S128x512x128_S128x512x256_d2 : Shape.Concatenates [S128x512x128, S128x512x128] S128x512x256 2
  slices_S3x256x128_S1x256x128_0_0_0 : S3x256x128.Slices ![0, 0, 0] S1x256x128
  shapeCasts_S1x256x128_S256x128 : S1x256x128.ShapeCasts S256x128
  bcast_S128x512x1_S128x512x128_0_1_2 : S128x512x1.BroadcastsInDim S128x512x128 (![0, 1, 2] : Fin 3 → Fin S128x512x128.rank)
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  reducesTo_S128x512x128_S128x128_d1 : S128x512x128.ReducesTo [1] S128x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S128x512x8_S8x128_S128x512x128_2_0_01_1_n_n_wf : DotDims.WF S128x512x8 S8x128 S128x512x128 [2] [0] [0, 1] [1] [] []
  dot_S128x512x128_S128x128_S128x512x128_2_0_01_1_n_n_wf : DotDims.WF S128x512x128 S128x128 S128x512x128 [2] [0] [0, 1] [1] [] []
  dot_S128x512x8_S128x512x8_S128x512x512_2_2_1_1_0_0_wf : DotDims.WF S128x512x8 S128x512x8 S128x512x512 [2] [2] [1] [1] [0] [0]
  dot_S128x512x512_S128x512x128_S128x512x128_2_1_1_2_0_0_wf : DotDims.WF S128x512x512 S128x512x128 S128x512x128 [2] [1] [1] [2] [0] [0]
  dot_S128x512x256_S256x128_S128x512x128_2_0_01_1_n_n_wf : DotDims.WF S128x512x256 S256x128 S128x512x128 [2] [0] [0, 1] [1] [] []
  dot_S128x128_S128x128_S128x128_1_0_0_1_n_n_wf : DotDims.WF S128x128 S128x128 S128x128 [1] [0] [0] [1] [] []

variable [Facts₀]

def dot_S128x512x8_S8x128_S128x512x128_2_0_01_1_n_n : DotDims S128x512x8 S8x128 S128x512x128 where
  lhsContracting := [2]
  rhsContracting := [0]
  lhsNonContracting := [0, 1]
  rhsNonContracting := [1]
  lhsBatch := []
  rhsBatch := []
  wf := dot_S128x512x8_S8x128_S128x512x128_2_0_01_1_n_n_wf
def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf
def dot_S128x512x8_S128x512x8_S128x512x512_2_2_1_1_0_0 : DotDims S128x512x8 S128x512x8 S128x512x512 where
  lhsContracting := [2]
  rhsContracting := [2]
  lhsNonContracting := [1]
  rhsNonContracting := [1]
  lhsBatch := [0]
  rhsBatch := [0]
  wf := dot_S128x512x8_S128x512x8_S128x512x512_2_2_1_1_0_0_wf
def dot_S128x512x512_S128x512x128_S128x512x128_2_1_1_2_0_0 : DotDims S128x512x512 S128x512x128 S128x512x128 where
  lhsContracting := [2]
  rhsContracting := [1]
  lhsNonContracting := [1]
  rhsNonContracting := [2]
  lhsBatch := [0]
  rhsBatch := [0]
  wf := dot_S128x512x512_S128x512x128_S128x512x128_2_1_1_2_0_0_wf
def dot_S128x512x256_S256x128_S128x512x128_2_0_01_1_n_n : DotDims S128x512x256 S256x128 S128x512x128 where
  lhsContracting := [2]
  rhsContracting := [0]
  lhsNonContracting := [0, 1]
  rhsNonContracting := [1]
  lhsBatch := []
  rhsBatch := []
  wf := dot_S128x512x256_S256x128_S128x512x128_2_0_01_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.Spec.lean ====
/-
  The mathematics of one batch element of the message-passing network, over the extended reals.

  One batch element has 512 nodes with 8 raw features each (`x`), a node mask (`mk`), and shared weights.
  * Two dense layers with a rectifier embed the nodes: `h = relu(relu(x·W0 + b0)·W1 + b1)`.
  * A fixed adjacency is the row-wise softmax of the negated squared distances `-(|x_i|² + |x_j|² - 2·x_i·x_j)`,
    each column shifted by a large negative number where the mask is not positive: the row maximum is subtracted,
    the exponentials are divided by their row sum.
  * Three rounds of message passing: a message `relu(h·Wm + bm)` per node, aggregated through the adjacency,
    joined to `h` along the feature axis (256 features), sent through a dense layer with a rectifier and
    multiplied by the node mask.
  * The nodes are pooled (a masked sum over the nodes) and read out by two dense layers.
  Every sum is a finite sum in the commutative monoid of the extended reals, so its order is immaterial; the four
  float constants the two programs share (0, 2, -1e9, -∞) are kept as their binary words and never evaluated.
-/
import Idealize.ShloMosaic.PureOps.Ideal
import Idealize.ShloMosaic.Lib.ValueIdx

noncomputable section

open scoped BigOperators

namespace Cert.Nmp

open Idealize.ShloMosaic

/-- The words of the shared float constants, read at the ideal instance. -/
abbrev zeroW : EReal := Ideal.ofBits .f32 0x00000000#32
abbrev twoW : EReal := Ideal.ofBits .f32 0x40000000#32
abbrev negBigW : EReal := Ideal.ofBits .f32 0xCE6E6B28#32
abbrev negInfW : EReal := Ideal.ofBits .f32 0xFF800000#32

/-- The rectifier: the maximum with zero. -/
def relu (a : EReal) : EReal := max a zeroW

/-- A dense layer: row `i` of `h` times column `k` of `W`, plus the bias. -/
def dense {n K N : ℕ} (h : Fin n → Fin K → EReal) (W : Fin K → Fin N → EReal) (c : Fin N → EReal)
    (i : Fin n) (k : Fin N) : EReal :=
  ∑ j : Fin K, h i j * W j k + c k

/-- A dense layer followed by the rectifier. -/
def denseRelu {n K N : ℕ} (h : Fin n → Fin K → EReal) (W : Fin K → Fin N → EReal) (c : Fin N → EReal)
    (i : Fin n) (k : Fin N) : EReal :=
  relu (dense h W c i k)

/-- The squared norm of node `i`'s raw features. -/
def sqn (x : Fin 512 → Fin 8 → EReal) (i : Fin 512) : EReal := ∑ f : Fin 8, x i f * x i f

/-- The inner product of two nodes' raw features. -/
def gram (x : Fin 512 → Fin 8 → EReal) (i j : Fin 512) : EReal := ∑ f : Fin 8, x i f * x j f

/-- The negated squared distance between nodes `i` and `j`. -/
def negDist (x : Fin 512 → Fin 8 → EReal) (i j : Fin 512) : EReal :=
  -((sqn x i + sqn x j) - twoW * gram x i j)

/-- The column shift: nothing where the mask is positive, the large negative constant elsewhere. -/
def maskBias (mk : Fin 512 → EReal) (j : Fin 512) : EReal :=
  Scalar.select (Ideal.cmp .ogt (mk j) zeroW) zeroW negBigW

/-- The softmax's logits. -/
def logit (L : Fin 512 → Fin 512 → EReal) (mk : Fin 512 → EReal) (i j : Fin 512) : EReal :=
  L i j + maskBias mk j

/-- The row maximum the softmax subtracts (folded from -∞, and once more joined with -∞). -/
def rowMax (L : Fin 512 → Fin 512 → EReal) (mk : Fin 512 → EReal) (i : Fin 512) : EReal :=
  max negInfW ((Finset.univ : Finset (Fin 512)).fold max negInfW (fun j => logit L mk i j))

/-- The shifted exponentials. -/
def expo (L : Fin 512 → Fin 512 → EReal) (mk : Fin 512 → EReal) (i j : Fin 512) : EReal :=
  Ideal.exp (logit L mk i j - rowMax L mk i)

/-- Their row sums. -/
def denom (L : Fin 512 → Fin 512 → EReal) (mk : Fin 512 → EReal) (i : Fin 512) : EReal :=
  ∑ j : Fin 512, expo L mk i j

/-- The adjacency: the row-wise softmax. -/
def adj (L : Fin 512 → Fin 512 → EReal) (mk : Fin 512 → EReal) (i j : Fin 512) : EReal :=
  Ideal.div (expo L mk i j) (denom L mk i)

/-- Aggregation of the messages `m` through the adjacency `A`. -/
def agg (A : Fin 512 → Fin 512 → EReal) (m : Fin 512 → Fin 128 → EReal) (i : Fin 512) (k : Fin 128) : EReal :=
  ∑ j : Fin 512, A i j * m j k

/-- Two 128-feature arrays joined along the feature axis. -/
def cat (h g : Fin 512 → Fin 128 → EReal) (i : Fin 512) (q : Fin 256) : EReal :=
  if hq : q.val < 128 then h i ⟨q.val, hq⟩ else g i ⟨q.val - 128, by have := q.isLt; omega⟩

/-- The vertex update from the joined features: a dense layer, the rectifier, the node mask. -/
def finish (C : Fin 512 → Fin 256 → EReal) (Wu : Fin 256 → Fin 128 → EReal) (bu : Fin 128 → EReal)
    (mk : Fin 512 → EReal) (i : Fin 512) (k : Fin 128) : EReal :=
  denseRelu C Wu bu i k * mk i

/-- What is joined in one round: the node states and the aggregated messages. -/
def joined (A : Fin 512 → Fin 512 → EReal) (Wm : Fin 128 → Fin 128 → EReal) (bm : Fin 128 → EReal)
    (h : Fin 512 → Fin 128 → EReal) : Fin 512 → Fin 256 → EReal :=
  cat h (agg A (denseRelu h Wm bm))

/-- One round of message passing. -/
def update (A : Fin 512 → Fin 512 → EReal) (mk : Fin 512 → EReal) (Wm : Fin 128 → Fin 128 → EReal) (bm : Fin 128 → EReal)
    (Wu : Fin 256 → Fin 128 → EReal) (bu : Fin 128 → EReal) (h : Fin 512 → Fin 128 → EReal) :
    Fin 512 → Fin 128 → EReal :=
  finish (joined A Wm bm h) Wu bu mk

/-- The masked sum over the nodes. -/
def pooled (h : Fin 512 → Fin 128 → EReal) (mk : Fin 512 → EReal) (k : Fin 128) : EReal :=
  ∑ i : Fin 512, h i k * mk i

/-- The hidden layer of the readout. -/
def hidden (p : Fin 128 → EReal) (R1 : Fin 128 → Fin 128 → EReal) (c1 : Fin 128 → EReal) (k : Fin 128) : EReal :=
  relu (∑ l : Fin 128, p l * R1 l k + c1 k)

/-- The readout's last layer. -/
def lastLayer (o : Fin 128 → EReal) (R2 : Fin 128 → Fin 128 → EReal) (c2 : Fin 128 → EReal) (k : Fin 128) : EReal :=
  ∑ j : Fin 128, o j * R2 j k + c2 k

/-- One batch element's inputs: its nodes, its mask, and the shared weights. -/
structure Inp where
  x : Fin 512 → Fin 8 → EReal
  mask : Fin 512 → EReal
  W0 : Fin 8 → Fin 128 → EReal
  b0 : Fin 128 → EReal
  W1 : Fin 128 → Fin 128 → EReal
  b1 : Fin 128 → EReal
  Wm : Fin 3 → Fin 128 → Fin 128 → EReal
  bm : Fin 3 → Fin 128 → EReal
  Wu : Fin 3 → Fin 256 → Fin 128 → EReal
  bu : Fin 3 → Fin 128 → EReal
  R1 : Fin 128 → Fin 128 → EReal
  c1 : Fin 128 → EReal
  R2 : Fin 128 → Fin 128 → EReal
  c2 : Fin 128 → EReal

namespace Inp

variable (P : Inp)

/-- The embedded nodes. -/
def emb : Fin 512 → Fin 128 → EReal := denseRelu (denseRelu P.x P.W0 P.b0) P.W1 P.b1

/-- The adjacency. -/
def A : Fin 512 → Fin 512 → EReal := adj (negDist P.x) P.mask

/-- Round `t` of message passing. -/
def step (t : Fin 3) (h : Fin 512 → Fin 128 → EReal) : Fin 512 → Fin 128 → EReal :=
  update P.A P.mask (P.Wm t) (P.bm t) (P.Wu t) (P.bu t) h

/-- The node states after the three rounds. -/
def nodes : Fin 512 → Fin 128 → EReal := P.step 2 (P.step 1 (P.step 0 P.emb))

/-- The network's output for this batch element. -/
def out (k : Fin 128) : EReal :=
  lastLayer (hidden (pooled P.nodes P.mask) P.R1 P.c1) P.R2 P.c2 k

end Inp

end Cert.Nmp

end
-- ==== Proof.Inputs.lean ====
/-
  One batch element's inputs, read out of the arrays.

  The kernel sees batch element `b` as blocks: a [1, 512, 8] block of the node features, a [1, 1, 512] block of the
  (reshaped) mask, and the weight arrays whole. The reference sees the whole [128, 512, 8] features and the
  [128, 512] mask and the same weights. Both give the same fourteen functions of coordinates; here they are packed.
-/
import proofs.«179744_j58248346468777_1_alg».proof.Proof.Spec

noncomputable section

namespace Cert.Nmp

open Idealize.ShloMosaic Idealize.ShloMosaic.ValueIdx

/-- A rank-2 array as a function of its two coordinates. -/
def m2 {a b : ℕ} (v : (⟨2, ![a, b]⟩ : Shape).Idx → EReal) : Fin a → Fin b → EReal := fun i j => v (ix2 i j)
/-- A rank-1 array as a function of its coordinate. -/
def v1 {a : ℕ} (v : (⟨1, ![a]⟩ : Shape).Idx → EReal) : Fin a → EReal := fun i => v (ix1 i)
/-- A [1, a, b] slab as a function of its last two coordinates. -/
def slab {a b : ℕ} (v : (⟨3, ![1, a, b]⟩ : Shape).Idx → EReal) : Fin a → Fin b → EReal := fun i j => v (ix3 0 i j)
/-- A [1, a] row as a function of its last coordinate. -/
def row {a : ℕ} (v : (⟨2, ![1, a]⟩ : Shape).Idx → EReal) : Fin a → EReal := fun i => v (ix2 0 i)
/-- An [a, 1] column as a function of its first coordinate. -/
def col {a : ℕ} (v : (⟨2, ![a, 1]⟩ : Shape).Idx → EReal) : Fin a → EReal := fun i => v (ix2 i 0)
/-- A [1, 1, a] row as a function of its last coordinate. -/
def row3 {a : ℕ} (v : (⟨3, ![1, 1, a]⟩ : Shape).Idx → EReal) : Fin a → EReal := fun i => v (ix3 0 0 i)

/-- The inputs of the batch element whose blocks the kernel holds. -/
def ofBlocks (x0 : (⟨3, ![1, 512, 8]⟩ : Shape).Idx → EReal) (x1 : (⟨3, ![1, 1, 512]⟩ : Shape).Idx → EReal)
    (x2 : (⟨2, ![8, 128]⟩ : Shape).Idx → EReal) (x3 : (⟨1, ![128]⟩ : Shape).Idx → EReal)
    (x4 : (⟨2, ![128, 128]⟩ : Shape).Idx → EReal) (x5 : (⟨1, ![128]⟩ : Shape).Idx → EReal)
    (x6 : (⟨3, ![3, 128, 128]⟩ : Shape).Idx → EReal) (x7 : (⟨2, ![3, 128]⟩ : Shape).Idx → EReal)
    (x8 : (⟨3, ![3, 256, 128]⟩ : Shape).Idx → EReal) (x9 : (⟨2, ![3, 128]⟩ : Shape).Idx → EReal)
    (x10 : (⟨2, ![128, 128]⟩ : Shape).Idx → EReal) (x11 : (⟨1, ![128]⟩ : Shape).Idx → EReal)
    (x12 : (⟨2, ![128, 128]⟩ : Shape).Idx → EReal) (x13 : (⟨1, ![128]⟩ : Shape).Idx → EReal) : Inp where
  x := fun i f => x0 (ix3 0 i f)
  mask := fun j => x1 (ix3 0 0 j)
  W0 := fun a b => x2 (ix2 a b)
  b0 := fun a => x3 (ix1 a)
  W1 := fun a b => x4 (ix2 a b)
  b1 := fun a => x5 (ix1 a)
  Wm := fun t a b => x6 (ix3 t a b)
  bm := fun t a => x7 (ix2 t a)
  Wu := fun t a b => x8 (ix3 t a b)
  bu := fun t a => x9 (ix2 t a)
  R1 := fun a b => x10 (ix2 a b)
  c1 := fun a => x11 (ix1 a)
  R2 := fun a b => x12 (ix2 a b)
  c2 := fun a => x13 (ix1 a)

/-- The inputs of batch element `b`, read out of the whole arrays. -/
def ofArrays (a0 : (⟨3, ![128, 512, 8]⟩ : Shape).Idx → EReal) (a1 : (⟨2, ![128, 512]⟩ : Shape).Idx → EReal)
    (a2 : (⟨2, ![8, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨3, ![3, 128, 128]⟩ : Shape).Idx → EReal) (a7 : (⟨2, ![3, 128]⟩ : Shape).Idx → EReal)
    (a8 : (⟨3, ![3, 256, 128]⟩ : Shape).Idx → EReal) (a9 : (⟨2, ![3, 128]⟩ : Shape).Idx → EReal)
    (a10 : (⟨2, ![128, 128]⟩ : Shape).Idx → EReal) (a11 : (⟨1, ![128]⟩ : Shape).Idx → EReal)
    (a12 : (⟨2, ![128, 128]⟩ : Shape).Idx → EReal) (a13 : (⟨1, ![128]⟩ : Shape).Idx → EReal) (b : Fin 128) : Inp where
  x := fun i f => a0 (ix3 b i f)
  mask := fun j => a1 (ix2 b j)
  W0 := fun p q => a2 (ix2 p q)
  b0 := fun p => a3 (ix1 p)
  W1 := fun p q => a4 (ix2 p q)
  b1 := fun p => a5 (ix1 p)
  Wm := fun t p q => a6 (ix3 t p q)
  bm := fun t p => a7 (ix2 t p)
  Wu := fun t p q => a8 (ix3 t p q)
  bu := fun t p => a9 (ix2 t p)
  R1 := fun p q => a10 (ix2 p q)
  c1 := fun p => a11 (ix1 p)
  R2 := fun p q => a12 (ix2 p q)
  c2 := fun p => a13 (ix1 p)

end Cert.Nmp

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibRank2.lean ====
/-
  General facts about vector operations on small-rank arrays, read at explicit coordinates, at the ideal instance
  (floats are extended reals) where arithmetic is involved.

  * A plain matrix product into a zero accumulator at `(r, c)` is `∑ k, x[r, k] · w[k, c]`.
  * Casts that add or drop unit axes read the same entry: `[a] → [a, 1]`, `[1, 1, a] → [a]`, `[a] → [1, 1, a]`.
  * A sum or a maximum over the second axis of a rank-2 array, read at row `i`, runs over that row; a sum over the
    first axis, read at column `k`, runs over that column.
  * Two arrays joined along the second axis: a column below the first extent comes from the first, the others from
    the second, the first extent less. The same for rank-3 arrays joined along the third axis.
  * The exponential acts entry by entry.
-/
import proofs.«179744_j58248346468777_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib2

open Idealize.ShloMosaic Idealize.ShloMosaic.ValueIdx

variable {α : Type}

/-- A plain matrix product into a zero accumulator, at explicit coordinates. -/
theorem plain_matmul_ix2 {φ₁ φ₂ : FTy} (M K N : Nat) (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) :=
  Cert.Gnn.plain_matmul_apply M K N prec x w (ix2 r c)

/-- A vector cast to a column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to a vector reads, at `j`, the operand at `(0, 0, j)`. -/
theorem shapeCast_11a_a_apply {a : ℕ} (x : (⟨3, ![1, 1, a]⟩ : Shape).Idx → α) (h : (⟨3, ![1, 1, a]⟩ : Shape).ShapeCasts ⟨1, ![a]⟩)
    (j : Fin a) : shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- A vector cast to `[1, 1, a]` reads, at `(u, v, k)`, the vector's entry `k`. -/
theorem shapeCast_a_11a_apply {a : ℕ} (x : (⟨1, ![a]⟩ : Shape).Idx → α) (h : (⟨1, ![a]⟩ : Shape).ShapeCasts ⟨3, ![1, 1, a]⟩)
    (u v : Fin 1) (k : Fin a) : shapeCast ⟨3, ![1, 1, a]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * a + k.val
    rw [hu, hv]; simp)

/-- The index a reduction over the second axis inserts at row `i`, coordinate `k`. -/
theorem lift_axis1 {A B : ℕ} (h : Shape.Reduces ⟨2, ![A, B]⟩ [1] ⟨1, ![A]⟩) (i : Fin A) (k : Fin B) :
    h.lift (ix1 i) k = ix2 i k :=
  funext fun d => Fin.ext (by match d with | ⟨0, _⟩ => rfl | ⟨1, _⟩ => rfl)

/-- The index a reduction over the first axis inserts at column `k`, coordinate `i`. -/
theorem lift_axis0 {A B : ℕ} (h : Shape.Reduces ⟨2, ![A, B]⟩ [0] ⟨1, ![B]⟩) (k : Fin B) (i : Fin A) :
    h.lift (ix1 k) i = ix2 i k :=
  funext fun d => Fin.ext (by match d with | ⟨0, _⟩ => rfl | ⟨1, _⟩ => rfl)

/-- A sum over the second axis, at row `i`. -/
theorem multiReduction_add_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (i : Fin A) :
    multiReduction .add [1] ⟨1, ![A]⟩ src acc h hφ hacc (ix1 i) = ∑ k : Fin B, src (ix2 i k) :=
  (Ideal.multiReduction_add_single src acc h hφ hacc (ix1 i)).trans
    (Finset.sum_congr rfl fun k _ => congrArg src (lift_axis1 h i k))

/-- A sum over the first axis, at column `k`. -/
theorem multiReduction_add_axis0 {φ : FTy} {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (k : Fin B) :
    multiReduction .add [0] ⟨1, ![B]⟩ src acc h hφ hacc (ix1 k) = ∑ i : Fin A, src (ix2 i k) :=
  (Ideal.multiReduction_add_single src acc h hφ hacc (ix1 k)).trans
    (Finset.sum_congr rfl fun i _ => congrArg src (lift_axis0 h k i))

/-- A maximum over the second axis, at row `i`: the fold of `max` from the accumulator's value over the row. -/
theorem multiReduction_max_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (i : Fin A) :
    multiReduction .maximumf [1] ⟨1, ![A]⟩ src acc h hφ hacc (ix1 i)
      = (Finset.univ : Finset (Fin B)).fold max (Ideal.ofBits φ acc) (fun k => src (ix2 i k)) :=
  (Ideal.multiReduction_maximumf_single src acc h hφ hacc (ix1 i)).trans
    (congrArg (fun g => (Finset.univ : Finset (Fin B)).fold max (Ideal.ofBits φ acc) g)
      (funext fun k => congrArg src (lift_axis1 h i k)))

/-- Two rank-2 arrays joined along the second axis, read at `(i, q)`. -/
theorem concatenate_cols_apply {a n1 n2 n : ℕ} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, n]⟩ 1) (hn : n = n1 + n2) (i : Fin a) (q : Fin n) :
    concatenate ⟨2, ![a, n]⟩ 1 [⟨⟨2, ![a, n1]⟩, x₁⟩, ⟨⟨2, ![a, n2]⟩, x₂⟩] h (ix2 i q)
      = if hq : q.val < n1 then x₁ (ix2 i ⟨q.val, hq⟩) else x₂ (ix2 i ⟨q.val - n1, by have := q.isLt; omega⟩) := by
  split
  · next hq =>
    exact concatenate_pair_apply_left 1 x₁ x₂ h (ix2 i q) rfl (ix2 i ⟨q.val, hq⟩)
      (fun b => match b with | ⟨0, _⟩ => rfl | ⟨1, _⟩ => rfl)
  · next hq =>
    exact concatenate_pair_apply_right 1 x₁ x₂ h (ix2 i q) rfl rfl (ix2 i ⟨q.val - n1, by have := q.isLt; omega⟩)
      (fun b hb => match b, hb with | ⟨0, _⟩, _ => rfl | ⟨1, _⟩, hb => absurd rfl hb)
      (by show (q.val - n1) + n1 = q.val; omega)

/-- Two rank-3 arrays joined along the third axis, read at `(b, i, q)`. -/
theorem concatenate_axis2_apply {m a n1 n2 n : ℕ} (x₁ : (⟨3, ![m, a, n1]⟩ : Shape).Idx → α) (x₂ : (⟨3, ![m, a, n2]⟩ : Shape).Idx → α)
    (h : Shape.Concatenates [⟨3, ![m, a, n1]⟩, ⟨3, ![m, a, n2]⟩] ⟨3, ![m, a, n]⟩ 2) (hn : n = n1 + n2) (b : Fin m) (i : Fin a) (q : Fin n) :
    concatenate ⟨3, ![m, a, n]⟩ 2 [⟨⟨3, ![m, a, n1]⟩, x₁⟩, ⟨⟨3, ![m, a, n2]⟩, x₂⟩] h (ix3 b i q)
      = if hq : q.val < n1 then x₁ (ix3 b i ⟨q.val, hq⟩) else x₂ (ix3 b i ⟨q.val - n1, by have := q.isLt; omega⟩) := by
  split
  · next hq =>
    exact concatenate_pair_apply_left 2 x₁ x₂ h (ix3 b i q) rfl (ix3 b i ⟨q.val, hq⟩)
      (fun d => match d with | ⟨0, _⟩ => rfl | ⟨1, _⟩ => rfl | ⟨2, _⟩ => rfl)
  · next hq =>
    exact concatenate_pair_apply_right 2 x₁ x₂ h (ix3 b i q) rfl rfl (ix3 b i ⟨q.val - n1, by have := q.isLt; omega⟩)
      (fun d hd => match d, hd with | ⟨0, _⟩, _ => rfl | ⟨1, _⟩, _ => rfl | ⟨2, _⟩, hd => absurd rfl hd)
      (by show (q.val - n1) + n1 = q.val; omega)

/-- The exponential acts entry by entry. -/
theorem exp_apply {s : Shape} {φ : FTy} (a : FVec Ideal s φ) (i : s.Idx) : exp a i = Ideal.exp (a i) := rfl

end Cert.Lib2

end
-- ==== Proof.KernelStages.lean ====
/-
  The kernel's body, stage by stage, is the network of Spec.lean.

  The body's arithmetic is a nest of pure terms of the loaded blocks. Each is read here at explicit coordinates, at
  the ideal instance: a change of float format is the identity, a matrix-unit product into a zero accumulator is the
  textbook sum, a lane reduction is a finite sum (or a fold of `max`), and casts, broadcasts, the transpose and the
  join along the feature axis only move entries. What comes out is, literally, the specification's formula over the
  blocks' entries; the one law used is `0 - y = -y` on the extended reals, for the negated squared distances.
-/
import proofs.«179744_j58248346468777_1_alg».proof.Proof.Gen.KernelIdeal.Frame
import proofs.«179744_j58248346468777_1_alg».proof.Proof.Inputs
import proofs.«179744_j58248346468777_1_alg».proof.Proof.LibRank2

noncomputable section

open scoped BigOperators

namespace Cert.Nmp.K

open Idealize.ShloMosaic Idealize.ShloMosaic.ValueIdx Cert.KernelIdeal Cert.KernelIdeal.Gen Cert.Nmp Cert.Gnn Cert.Lib2

/-! ## The printed dimension records are the plain matrix product's -/

theorem dot_512_8_128 : dot_S512x8_S8x128_S512x128_1_0_0_1_n_n = DotDims.plain 512 8 128 := rfl
theorem dot_512_128_128 : dot_S512x128_S128x128_S512x128_1_0_0_1_n_n = DotDims.plain 512 128 128 := rfl
theorem dot_512_8_512 : dot_S512x8_S8x512_S512x512_1_0_0_1_n_n = DotDims.plain 512 8 512 := rfl
theorem dot_512_512_128 : dot_S512x512_S512x128_S512x128_1_0_0_1_n_n = DotDims.plain 512 512 128 := rfl
theorem dot_512_256_128 : dot_S512x256_S256x128_S512x128_1_0_0_1_n_n = DotDims.plain 512 256 128 := rfl
theorem dot_1_128_128 : dot_S1x128_S128x128_S1x128_1_0_0_1_n_n = DotDims.plain 1 128 128 := rfl

/-- The join of two 128-feature arrays along the feature axis, at `(i, q)`. -/
theorem cat_apply (H G : FVec Ideal S512x128 .f32) (i : Fin 512) (q : Fin 256) :
    concatenate S512x256 1 [⟨S512x128, H⟩, ⟨S512x128, G⟩] concatenates_S512x128_S512x128_S512x256_d1 (ix2 i q)
      = cat (fun a b => H (ix2 a b)) (fun a b => G (ix2 a b)) i q :=
  concatenate_cols_apply H G concatenates_S512x128_S512x128_S512x256_d1 rfl i q

/-! ## This kernel's reductions and transpose, at coordinates -/

/-- A node's sum over its 8 features. -/
theorem sum_feat (v : FVec Ideal S512x8 .f32) (i : Fin 512) :
    multiReduction .add (no_index [1]) S512 v 0x00000000#32 reduces_S512x8_S512 (.inl rfl) rfl (ix1 i) = ∑ k : Fin 8, v (ix2 i k) :=
  multiReduction_add_axis1 v _ _ _ _ i

/-- A row's sum over the 512 columns. -/
theorem sum_row (v : FVec Ideal S512x512 .f32) (i : Fin 512) :
    multiReduction .add (no_index [1]) S512 v 0x00000000#32 reduces_S512x512_S512 (.inl rfl) rfl (ix1 i) = ∑ k : Fin 512, v (ix2 i k) :=
  multiReduction_add_axis1 v _ _ _ _ i

/-- A row's maximum over the 512 columns, folded from -∞. -/
theorem max_row (v : FVec Ideal S512x512 .f32) (i : Fin 512) :
    multiReduction .maximumf (no_index [1]) S512 v 0xFF800000#32 reduces_S512x512_S512 (.inl rfl) rfl (ix1 i)
      = (Finset.univ : Finset (Fin 512)).fold max negInfW (fun k => v (ix2 i k)) :=
  multiReduction_max_axis1 v _ _ _ _ i

/-- A feature's sum over the 512 nodes. -/
theorem sum_nodes (v : FVec Ideal S512x128 .f32) (k : Fin 128) :
    multiReduction .add (no_index [0]) S128 v 0x00000000#32 reduces_S512x128_S128 (.inl rfl) rfl (ix1 k) = ∑ i : Fin 512, v (ix2 i k) :=
  multiReduction_add_axis0 v _ _ _ _ k

/-- The transposed features. -/
theorem transpose_feat (v : FVec Ideal S512x8 .bf16) (f : Fin 8) (j : Fin 512) :
    transpose S8x512 (no_index [1, 0]) v transposes_S512x8_p1_0_S8x512 (ix2 f j) = v (ix2 j f) :=
  transpose_ix2_apply v _ f j

/-! ## The layout payloads -/

theorem pay2_apply (v0 : Vec Ideal S1x512x8 .f32) (i : Fin 512) (f : Fin 8) : k0_pay2 v0 (ix2 i f) = v0 (ix3 0 i f) := by
  unfold k0_pay2
  exact shapeCast_1ab_ab_apply v0 _ i f

theorem pay3_apply (v2 : Vec Ideal S1x1x512 .f32) (j : Fin 512) : k0_pay3 v2 (ix1 j) = v2 (ix3 0 0 j) := by
  unfold k0_pay3
  exact shapeCast_11a_a_apply v2 _ j

theorem pay4_apply (v0 : Vec Ideal S1x512x8 .f32) (i : Fin 512) (f : Fin 8) : k0_pay4 v0 (ix2 i f) = v0 (ix3 0 i f) := by
  unfold k0_pay4
  exact pay2_apply v0 i f

theorem pay7_apply (v2 : Vec Ideal S1x1x512 .f32) (j : Fin 512) : k0_pay7 v2 (ix2 0 j) = v2 (ix3 0 0 j) := by
  unfold k0_pay7
  exact (shapeCast_a_1a_apply (k0_pay3 v2) _ 0 j).trans (pay3_apply v2 j)

theorem pay9_apply (v3 : FVec Ideal S512 .f32) (i : Fin 512) : k0_pay9 v3 (ix2 i 0) = v3 (ix1 i) := by
  unfold k0_pay9
  exact shapeCast_a_a1_apply v3 _ i 0

theorem pay10_apply (v63 : Vec Ideal S1x256x128 .f32) (a : Fin 256) (b : Fin 128) : k0_pay10 v63 (ix2 a b) = v63 (ix3 0 a b) := by
  unfold k0_pay10
  exact shapeCast_1ab_ab_apply v63 _ a b

theorem pay11_apply (v66 : Vec Ideal S1x128 .f32) (a : Fin 128) : k0_pay11 v66 (ix1 a) = v66 (ix2 0 a) := by
  unfold k0_pay11
  exact shapeCast_1a_a_apply v66 _ a

theorem pay14_apply (v118 : Vec Ideal S1x128x128 .f32) (a b : Fin 128) : k0_pay14 v118 (ix2 a b) = v118 (ix3 0 a b) := by
  unfold k0_pay14
  exact shapeCast_1ab_ab_apply v118 _ a b

/-! ## The embedding -/

theorem pay5_apply (v0 : Vec Ideal S1x512x8 .f32) (v5 : Vec Ideal S8x128 .f32) (v8 : Vec Ideal S128 .f32) (v15 : Vec Ideal S128x128 .f32) (v18 : Vec Ideal S128 .f32) (i : Fin 512) (k : Fin 128) :
    k0_pay5 v0 v5 v8 v15 v18 (ix2 i k) = denseRelu (denseRelu (slab v0) (m2 v5) (v1 v8)) (m2 v15) (v1 v18) i k := by
  unfold k0_pay5
  simp only [matmul, dot_512_8_128, dot_512_128_128, maximumf_apply, addf_apply, plain_matmul_ix2, truncf_apply, broadcast_apply,
    pay4_apply, broadcastTo_1b_ab_apply, shapeCast_a_1a_apply]
  rfl

/-! ## The adjacency -/

/-- The negated squared distances; `0 - y = -y` on the extended reals. -/
theorem pay6_apply (v0 : Vec Ideal S1x512x8 .f32) (i j : Fin 512) : k0_pay6 v0 (ix2 i j) = negDist (slab v0) i j := by
  unfold k0_pay6
  simp only [matmul, dot_512_8_512, subf_apply, addf_apply, mulf_apply, plain_matmul_ix2, broadcast_apply, transpose_feat,
    pay4_apply, pay2_apply, broadcastTo_1b_ab_apply, broadcastTo_a1_ab_apply, shapeCast_a_1a_apply, shapeCast_a_a1_apply,
    sum_feat]
  rw [Ideal.ofBits_def, Ideal.ofBits_zero_f32, zero_sub]
  rfl

theorem pay8_apply (v37 : FVec Ideal S512x512 .f32) (v38 : FVec Ideal S1x512 .f32) (i j : Fin 512) :
    k0_pay8 v37 v38 (ix2 i j) = adj (m2 v37) (row v38) i j := by
  unfold k0_pay8
  simp only [divf_apply, exp_apply, subf_apply, addf_apply, maximumf_apply, broadcast_apply, select_apply, cmpf_apply,
    broadcastTo_1b_ab_apply, broadcastTo_a1_ab_apply, shapeCast_a_a1_apply, sum_row, max_row]
  rfl

/-! ## The rounds of message passing -/

theorem pay12_apply (v23 : FVec Ideal S512x128 .f32) (v37 : FVec Ideal S512x512 .f32) (v38 : FVec Ideal S1x512 .f32) (v58 : Vec Ideal S1x128x128 .f32) (v61 : Vec Ideal S1x128 .f32) (i : Fin 512) (q : Fin 256) :
    k0_pay12 v23 v37 v38 v58 v61 (ix2 i q) = joined (adj (m2 v37) (row v38)) (slab v58) (row v61) (m2 v23) i q := by
  unfold k0_pay12
  simp only [m2, matmul, dot_512_128_128, dot_512_512_128, maximumf_apply, addf_apply, plain_matmul_ix2, truncf_apply, broadcast_apply,
    broadcastTo_1b_ab_apply, shapeCast_a_1a_apply, shapeCast_1a_a_apply, shapeCast_1ab_ab_apply, pay8_apply, cat_apply]
  rfl

theorem pay13_apply (v56 : FVec Ideal S512x512 .f32) (v57 : FVec Ideal S512x1 .f32) (v65 : FVec Ideal S256x128 .bf16) (v67 : FVec Ideal S128 .f32) (v79 : FVec Ideal S512x256 .bf16)
    (v88 : Vec Ideal S1x128x128 .f32) (v91 : Vec Ideal S1x128 .f32) (v93 : Vec Ideal S1x256x128 .f32) (v96 : Vec Ideal S1x128 .f32) (i : Fin 512) (k : Fin 128) :
    k0_pay13 v56 v57 v65 v67 v79 v88 v91 v93 v96 (ix2 i k)
      = update (m2 v56) (col v57) (slab v88) (row v91) (slab v93) (row v96) (finish (m2 v79) (m2 v65) (v1 v67) (col v57)) i k := by
  unfold k0_pay13
  simp only [m2, matmul, dot_512_128_128, dot_512_512_128, dot_512_256_128, maximumf_apply, addf_apply, mulf_apply, plain_matmul_ix2, truncf_apply,
    broadcast_apply, broadcastTo_1b_ab_apply, broadcastTo_a1_ab_apply, shapeCast_a_1a_apply, shapeCast_1a_a_apply, shapeCast_1ab_ab_apply, cat_apply]
  rfl

/-! ## The last round, the pooling and the readout -/

theorem pay15_apply (v56 : FVec Ideal S512x512 .f32) (v57 : FVec Ideal S512x1 .f32) (v117 : FVec Ideal S512x128 .f32) (v119 : FVec Ideal S128x128 .f32)
    (v121 : Vec Ideal S1x128 .f32) (v123 : Vec Ideal S1x256x128 .f32) (v126 : Vec Ideal S1x128 .f32) (v153 : Vec Ideal S128x128 .f32) (v156 : Vec Ideal S128 .f32) (k : Fin 128) :
    k0_pay15 v56 v57 v117 v119 v121 v123 v126 v153 v156 (ix2 0 k)
      = hidden (pooled (update (m2 v56) (col v57) (m2 v119) (row v121) (slab v123) (row v126) (m2 v117)) (col v57)) (m2 v153) (v1 v156) k := by
  unfold k0_pay15
  simp only [m2, matmul, dot_512_128_128, dot_512_512_128, dot_512_256_128, dot_1_128_128, maximumf_apply, addf_apply, mulf_apply, plain_matmul_ix2, truncf_apply,
    broadcast_apply, broadcastTo_1b_ab_apply, broadcastTo_a1_ab_apply, shapeCast_a_1a_apply, shapeCast_1a_a_apply, shapeCast_1ab_ab_apply, cat_apply, sum_nodes]
  rfl

theorem pay1_apply (v161 : FVec Ideal S1x128 .bf16) (v162 : Vec Ideal S128x128 .f32) (v165 : Vec Ideal S128 .f32) (k : Fin 128) :
    k0_pay1 v161 v162 v165 (ix3 0 0 k) = lastLayer (row v161) (m2 v162) (v1 v165) k := by
  unfold k0_pay1
  simp only [matmul, dot_1_128_128, addf_apply, plain_matmul_ix2, truncf_apply, shapeCast_a_1a_apply, shapeCast_1a_a_apply, shapeCast_a_11a_apply]
  rfl

end Cert.Nmp.K

end
-- ==== Proof.KernelOut.lean ====
/-
  What the kernel's body stores, entry by entry: the network's output for the batch element whose blocks it holds.

  The body stores ONE piece, the whole [1, 1, 128] block, so the buffer after the body is that payload; the inputs
  are loaded whole, except the stacked weights of the three rounds, each read as its own [1, ·, ·] slab (slab `t`
  of a stacked array starts at row `t`). Each stage lemma is restated for the whole array it produces, and the nest
  of payloads is then read in one pass.
-/
import proofs.«179744_j58248346468777_1_alg».proof.Proof.KernelStages

noncomputable section

open scoped BigOperators

namespace Cert.Nmp.K

open Idealize.ShloMosaic Idealize.ShloMosaic.ValueIdx Cert.KernelIdeal Cert.KernelIdeal.Gen Cert.Nmp Cert.Gnn Cert.Lib2

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A load through a unit-stride rectangle reads the array at the offset plus the coordinate. -/
theorem ld_unit_apply {S : Shape} {Val : EltTy → Type} {e : EltTy} (X : S.Idx → Val e) (off size : Fin S.rank → Nat)
    (inb : ∀ a, off a + size a ≤ S.size a) (y : (Rect.unit off size inb).shape.Idx) (j : S.Idx)
    (h : ∀ a, (j a).val = off a + (y a).val) : View.ld X (Rect.unit off size inb) y = X j :=
  congrArg X (funext fun a => Fin.ext (by
    show off a + 1 * (y a).val = (j a).val
    rw [Nat.one_mul]; exact (h a).symm))

/-! ## The slabs of the stacked weights -/

theorem slab_Wm0 (x6 : Vec Ideal S3x128x128 .f32) : slab (View.ld x6 r0_5) = fun a b => x6 (ix3 0 a b) :=
  funext fun a => funext fun b => ld_unit_apply x6 _ _ _ (ix3 0 a b) (ix3 0 a b)
    (fun d => match d with | ⟨0, _⟩ => rfl | ⟨1, _⟩ => (Nat.zero_add _).symm | ⟨2, _⟩ => (Nat.zero_add _).symm)
theorem slab_Wm1 (x6 : Vec Ideal S3x128x128 .f32) : slab (View.ld x6 r0_8) = fun a b => x6 (ix3 1 a b) :=
  funext fun a => funext fun b => ld_unit_apply x6 _ _ _ (ix3 0 a b) (ix3 1 a b)
    (fun d => match d with | ⟨0, _⟩ => rfl | ⟨1, _⟩ => (Nat.zero_add _).symm | ⟨2, _⟩ => (Nat.zero_add _).symm)
theorem slab_Wm2 (x6 : Vec Ideal S3x128x128 .f32) : slab (View.ld x6 r0_11) = fun a b => x6 (ix3 2 a b) :=
  funext fun a => funext fun b => ld_unit_apply x6 _ _ _ (ix3 0 a b) (ix3 2 a b)
    (fun d => match d with | ⟨0, _⟩ => rfl | ⟨1, _⟩ => (Nat.zero_add _).symm | ⟨2, _⟩ => (Nat.zero_add _).symm)
theorem slab_Wu0 (x8 : Vec Ideal S3x256x128 .f32) : slab (View.ld x8 r0_7) = fun a b => x8 (ix3 0 a b) :=
  funext fun a => funext fun b => ld_unit_apply x8 _ _ _ (ix3 0 a b) (ix3 0 a b)
    (fun d => match d with | ⟨0, _⟩ => rfl | ⟨1, _⟩ => (Nat.zero_add _).symm | ⟨2, _⟩ => (Nat.zero_add _).symm)
theorem slab_Wu1 (x8 : Vec Ideal S3x256x128 .f32) : slab (View.ld x8 r0_10) = fun a b => x8 (ix3 1 a b) :=
  funext fun a => funext fun b => ld_unit_apply x8 _ _ _ (ix3 0 a b) (ix3 1 a b)
    (fun d => match d with | ⟨0, _⟩ => rfl | ⟨1, _⟩ => (Nat.zero_add _).symm | ⟨2, _⟩ => (Nat.zero_add _).symm)
theorem slab_Wu2 (x8 : Vec Ideal S3x256x128 .f32) : slab (View.ld x8 r0_13) = fun a b => x8 (ix3 2 a b) :=
  funext fun a => funext fun b => ld_unit_apply x8 _ _ _ (ix3 0 a b) (ix3 2 a b)
    (fun d => match d with | ⟨0, _⟩ => rfl | ⟨1, _⟩ => (Nat.zero_add _).symm | ⟨2, _⟩ => (Nat.zero_add _).symm)
theorem row_b0 (x7 : Vec Ideal S3x128 .f32) : row (View.ld x7 r0_6) = fun a => x7 (ix2 0 a) :=
  funext fun a => ld_unit_apply x7 _ _ _ (ix2 0 a) (ix2 0 a) (fun d => match d with | ⟨0, _⟩ => rfl | ⟨1, _⟩ => (Nat.zero_add _).symm)
theorem row_b1 (x7 : Vec Ideal S3x128 .f32) : row (View.ld x7 r0_9) = fun a => x7 (ix2 1 a) :=
  funext fun a => ld_unit_apply x7 _ _ _ (ix2 0 a) (ix2 1 a) (fun d => match d with | ⟨0, _⟩ => rfl | ⟨1, _⟩ => (Nat.zero_add _).symm)
theorem row_b2 (x7 : Vec Ideal S3x128 .f32) : row (View.ld x7 r0_12) = fun a => x7 (ix2 2 a) :=
  funext fun a => ld_unit_apply x7 _ _ _ (ix2 0 a) (ix2 2 a) (fun d => match d with | ⟨0, _⟩ => rfl | ⟨1, _⟩ => (Nat.zero_add _).symm)

/-! ## The stages, as whole arrays -/

theorem row_pay7 (v2 : Vec Ideal S1x1x512 .f32) : row (k0_pay7 v2) = row3 v2 := funext fun j => pay7_apply v2 j
theorem v1_pay3 (v2 : Vec Ideal S1x1x512 .f32) : v1 (k0_pay3 v2) = row3 v2 := funext fun j => pay3_apply v2 j
theorem col_pay9 (v3 : FVec Ideal S512 .f32) : col (k0_pay9 v3) = v1 v3 := funext fun i => pay9_apply v3 i
theorem m2_pay10 (v63 : Vec Ideal S1x256x128 .f32) : m2 (k0_pay10 v63) = slab v63 := funext fun a => funext fun b => pay10_apply v63 a b
theorem v1_pay11 (v66 : Vec Ideal S1x128 .f32) : v1 (k0_pay11 v66) = row v66 := funext fun a => pay11_apply v66 a
theorem m2_pay14 (v118 : Vec Ideal S1x128x128 .f32) : m2 (k0_pay14 v118) = slab v118 := funext fun a => funext fun b => pay14_apply v118 a b
theorem m2_pay5 (v0 : Vec Ideal S1x512x8 .f32) (v5 : Vec Ideal S8x128 .f32) (v8 : Vec Ideal S128 .f32) (v15 : Vec Ideal S128x128 .f32) (v18 : Vec Ideal S128 .f32) :
    m2 (k0_pay5 v0 v5 v8 v15 v18) = denseRelu (denseRelu (slab v0) (m2 v5) (v1 v8)) (m2 v15) (v1 v18) :=
  funext fun i => funext fun k => pay5_apply v0 v5 v8 v15 v18 i k
theorem m2_pay6 (v0 : Vec Ideal S1x512x8 .f32) : m2 (k0_pay6 v0) = negDist (slab v0) := funext fun i => funext fun j => pay6_apply v0 i j
theorem m2_pay8 (v37 : FVec Ideal S512x512 .f32) (v38 : FVec Ideal S1x512 .f32) : m2 (k0_pay8 v37 v38) = adj (m2 v37) (row v38) :=
  funext fun i => funext fun j => pay8_apply v37 v38 i j
theorem m2_pay12 (v23 : FVec Ideal S512x128 .f32) (v37 : FVec Ideal S512x512 .f32) (v38 : FVec Ideal S1x512 .f32) (v58 : Vec Ideal S1x128x128 .f32) (v61 : Vec Ideal S1x128 .f32) :
    m2 (k0_pay12 v23 v37 v38 v58 v61) = joined (adj (m2 v37) (row v38)) (slab v58) (row v61) (m2 v23) :=
  funext fun i => funext fun q => pay12_apply v23 v37 v38 v58 v61 i q
theorem m2_pay13 (v56 : FVec Ideal S512x512 .f32) (v57 : FVec Ideal S512x1 .f32) (v65 : FVec Ideal S256x128 .bf16) (v67 : FVec Ideal S128 .f32) (v79 : FVec Ideal S512x256 .bf16)
    (v88 : Vec Ideal S1x128x128 .f32) (v91 : Vec Ideal S1x128 .f32) (v93 : Vec Ideal S1x256x128 .f32) (v96 : Vec Ideal S1x128 .f32) :
    m2 (k0_pay13 v56 v57 v65 v67 v79 v88 v91 v93 v96)
      = update (m2 v56) (col v57) (slab v88) (row v91) (slab v93) (row v96) (finish (m2 v79) (m2 v65) (v1 v67) (col v57)) :=
  funext fun i => funext fun k => pay13_apply v56 v57 v65 v67 v79 v88 v91 v93 v96 i k
theorem row_pay15 (v56 : FVec Ideal S512x512 .f32) (v57 : FVec Ideal S512x1 .f32) (v117 : FVec Ideal S512x128 .f32) (v119 : FVec Ideal S128x128 .f32)
    (v121 : Vec Ideal S1x128 .f32) (v123 : Vec Ideal S1x256x128 .f32) (v126 : Vec Ideal S1x128 .f32) (v153 : Vec Ideal S128x128 .f32) (v156 : Vec Ideal S128 .f32) :
    row (k0_pay15 v56 v57 v117 v119 v121 v123 v126 v153 v156)
      = hidden (pooled (update (m2 v56) (col v57) (m2 v119) (row v121) (slab v123) (row v126) (m2 v117)) (col v57)) (m2 v153) (v1 v156) :=
  funext fun k => pay15_apply v56 v57 v117 v119 v121 v123 v126 v153 v156 k

/-- The block the body leaves, at feature `k`: the network's output on the blocks it was given. -/
theorem out_apply (x0 : Vec Ideal S1x512x8 .f32) (x1 : Vec Ideal S1x1x512 .f32) (x2 : Vec Ideal S8x128 .f32) (x3 : Vec Ideal S128 .f32) (x4 : Vec Ideal S128x128 .f32) (x5 : Vec Ideal S128 .f32) (x6 : Vec Ideal S3x128x128 .f32) (x7 : Vec Ideal S3x128 .f32) (x8 : Vec Ideal S3x256x128 .f32) (x9 : Vec Ideal S3x128 .f32) (x10 : Vec Ideal S128x128 .f32) (x11 : Vec Ideal S128 .f32) (x12 : Vec Ideal S128x128 .f32) (x13 : Vec Ideal S128 .f32) (k : Fin 128) :
    out0_14 x0 x1 x2 x3 x4 x5 x6 x7 x8 x9 x10 x11 x12 x13 (ix3 0 0 k) = (ofBlocks x0 x1 x2 x3 x4 x5 x6 x7 x8 x9 x10 x11 x12 x13).out k := by
  unfold out0_14
  rw [View.canon_unit_zero hz3]
  simp only [View.ld_unit_zero (S := S1x512x8) hz3, View.ld_unit_zero (S := S1x1x512) hz3, View.ld_unit_zero (S := S8x128) hz2,
    View.ld_unit_zero (S := S128) hz1, View.ld_unit_zero (S := S128x128) hz2]
  rw [pay1_apply]
  simp only [row_pay15, m2_pay13, m2_pay12, m2_pay8, m2_pay6, m2_pay5, row_pay7, col_pay9, v1_pay3, m2_pay10, v1_pay11, m2_pay14,
    slab_Wm0, slab_Wm1, slab_Wm2, slab_Wu0, slab_Wu1, slab_Wu2, row_b0, row_b1, row_b2]
  rfl

end Cert.Nmp.K

end
-- ==== Proof.KernelRun.lean ====
/-
  The kernel's run, read: what its result array holds when every execution has ended.

  Grid point `t` of the 128 holds batch element `t`: its block of the node features is rows `(t, ·, ·)` of the
  features, its block of the (reshaped) mask is row `t` of the mask, the weight arrays are staged whole, and it
  writes back row `(t, 0, ·)` of the region's [128, 1, 128] output. The 128 rows tile that array, so after the
  region it holds, at `(b, 0, k)`, the network's output for batch element `b`; the reshape after the region reads
  it at `(b, k)`. The arguments are as launched.
-/
import proofs.«179744_j58248346468777_1_alg».proof.Proof.KernelOut
import Idealize.ShloMosaic.Lib.StableHlo.Run

set_option maxRecDepth 16384

noncomputable section

open scoped BigOperators

namespace Cert.Nmp.KRun

open Idealize.ShloMosaic Idealize.ShloMosaic.TcCoe Idealize.ShloMosaic.ValueIdx Idealize.SL.Sem Idealize.ShloMosaic.StableHlo
open Cert.KernelIdeal Cert.KernelIdeal.Gen Cert.Nmp
open Idealize.ShloMosaic.Pipeline (Dat)

/-- An [a, b] array cast to [a, 1, b] reads, at `(p, 0, q)`, the operand at `(p, q)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu]; simp)

/-- An [a, 1, b] array cast to [a, b] reads, at `(p, q)`, the operand at `(p, 0, q)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    simp)

variable (m : (ℓ : Loc nD τ sig) → Buf (Elt Ideal) ℓ) (ρ : Dev nD → PrngReg)

/-- Batch element `b`'s inputs, as launched on core `c`. -/
def inpAt (c : Dev nD) (b : Fin 128) : Inp :=
  ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b

/-- What the region's output array ends holding. -/
def G (c : Dev nD) : S128x1x128.Idx → EReal := fun i => (inpAt m c (i 0)).out (i 2)

/-- The result: the network's output for batch element `b`, feature `k`. -/
def result (c : Dev nD) : S128x128.Idx → EReal := fun j => (inpAt m c (j 0)).out (j 1)

/-- The grid point as a batch index. -/
def tb (t : Fin cfg0.N) : Fin 128 := ⟨t.val, t.isLt⟩

/-- The printed index maps, decided over the grid: the three gridded windows sit at block `(t, 0, 0)`, the weight
    windows at the origin. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_14.index t (0 : Fin 3) = t.val
    ∧ win0_14.index t (1 : Fin 3) = 0
    ∧ win0_14.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 3) = 0
    ∧ win0_6.index t (1 : Fin 3) = 0
    ∧ win0_6.index t (2 : Fin 3) = 0
    ∧ win0_7.index t (0 : Fin 2) = 0
    ∧ win0_7.index t (1 : Fin 2) = 0
    ∧ win0_8.index t (0 : Fin 3) = 0
    ∧ win0_8.index t (1 : Fin 3) = 0
    ∧ win0_8.index t (2 : Fin 3) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0 :=
  (by decide +kernel : ∀ t : Fin grid0.N, _)

/-! ## The blocks at point `t`, named at their literal types -/

abbrev X0 (c : Dev nD) (t : Fin cfg0.N) : Vec Ideal S1x512x8 .f32 := iblk m c 0 t
abbrev X1 (c : Dev nD) (t : Fin cfg0.N) : Vec Ideal S1x1x512 .f32 := iblk m c 1 t
abbrev X2 (c : Dev nD) (t : Fin cfg0.N) : Vec Ideal S8x128 .f32 := iblk m c 2 t
abbrev X3 (c : Dev nD) (t : Fin cfg0.N) : Vec Ideal S128 .f32 := iblk m c 3 t
abbrev X4 (c : Dev nD) (t : Fin cfg0.N) : Vec Ideal S128x128 .f32 := iblk m c 4 t
abbrev X5 (c : Dev nD) (t : Fin cfg0.N) : Vec Ideal S128 .f32 := iblk m c 5 t
abbrev X6 (c : Dev nD) (t : Fin cfg0.N) : Vec Ideal S3x128x128 .f32 := iblk m c 6 t
abbrev X7 (c : Dev nD) (t : Fin cfg0.N) : Vec Ideal S3x128 .f32 := iblk m c 7 t
abbrev X8 (c : Dev nD) (t : Fin cfg0.N) : Vec Ideal S3x256x128 .f32 := iblk m c 8 t
abbrev X9 (c : Dev nD) (t : Fin cfg0.N) : Vec Ideal S3x128 .f32 := iblk m c 9 t
abbrev X10 (c : Dev nD) (t : Fin cfg0.N) : Vec Ideal S128x128 .f32 := iblk m c 10 t
abbrev X11 (c : Dev nD) (t : Fin cfg0.N) : Vec Ideal S128 .f32 := iblk m c 11 t
abbrev X12 (c : Dev nD) (t : Fin cfg0.N) : Vec Ideal S128x128 .f32 := iblk m c 12 t
abbrev X13 (c : Dev nD) (t : Fin cfg0.N) : Vec Ideal S128 .f32 := iblk m c 13 t

/-- The reshaped mask as the region finds it. -/
theorem V_main_v0 (c : Dev nD) :
    (V m c main_v0 : S128x1x512.Idx → EReal) = shapeCast S128x1x512 (m ((c : Thread nD τ).loc main_arg1)) shapeCasts_S128x512_S128x1x512 := by
  show StableHlo.after hostOps0 (fun b => m (c, b)) (Proc.devRef .tc main_v0) = _
  after_results
  rfl

/-- Point `t`'s block of the node features is batch element `t`'s rows. -/
theorem blk0 (c : Dev nD) (t : Fin cfg0.N) (i : Fin 512) (f : Fin 8) :
    X0 m c t (ix3 0 i f) = m ((c : Thread nD τ).loc main_arg0) (ix3 (tb t) i f) := by
  have e := idx_facts t
  show V m c main_arg0 (((cfg0.win 0).blk t).view.emb (ix3 0 i f)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 8 + 1 * f.val = f.val; omega

/-- Point `t`'s block of the mask is batch element `t`'s row. -/
theorem blk1 (c : Dev nD) (t : Fin cfg0.N) (j : Fin 512) :
    X1 m c t (ix3 0 0 j) = m ((c : Thread nD τ).loc main_arg1) (ix2 (tb t) j) := by
  have e := idx_facts t
  show V m c main_v0 (((cfg0.win 1).blk t).view.emb (ix3 0 0 j)) = _
  rw [V_main_v0]
  refine Eq.trans (congrArg _ (funext fun a => Fin.ext ?_)) (shapeCast_ab_a1b_apply _ _ (tb t) 0 j)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * j.val = j.val; omega

/-! ## The weight windows hold their whole arrays at every point -/

theorem blk2 (c : Dev nD) (t : Fin cfg0.N) (p : Fin 8) (q : Fin 128) :
    X2 m c t (ix2 p q) = m ((c : Thread nD τ).loc main_arg2) (ix2 p q) := by
  have e := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 8 + 1 * p.val = p.val; omega
  | ⟨1, _⟩ => show win0_2.index t (1 : Fin 2) * 128 + 1 * q.val = q.val; omega

theorem blk3 (c : Dev nD) (t : Fin cfg0.N) (p : Fin 128) :
    X3 m c t (ix1 p) = m ((c : Thread nD τ).loc main_arg3) (ix1 p) := by
  have e := idx_facts t
  show V m c main_arg3 (((cfg0.win 3).blk t).view.emb (ix1 p)) = _
  rw [V_main_arg3]
  refine congrArg _ (funext fun a => Fin.ext ?_)
  match a with
  | ⟨0, _⟩ => show win0_3.index t (0 : Fin 1) * 128 + 1 * p.val = p.val; omega

theorem blk4 (c : Dev nD) (t : Fin cfg0.N) (p : Fin 128) (q : Fin 128) :
    X4 m c t (ix2 p q) = m ((c : Thread nD τ).loc main_arg4) (ix2 p q) := by
  have e := idx_facts t
  show V m c main_arg4 (((cfg0.win 4).blk t).view.emb (ix2 p q)) = _
  rw [V_main_arg4]
  refine congrArg _ (funext fun a => Fin.ext ?_)
  match a with
  | ⟨0, _⟩ => show win0_4.index t (0 : Fin 2) * 128 + 1 * p.val = p.val; omega
  | ⟨1, _⟩ => show win0_4.index t (1 : Fin 2) * 128 + 1 * q.val = q.val; omega

theorem blk5 (c : Dev nD) (t : Fin cfg0.N) (p : Fin 128) :
    X5 m c t (ix1 p) = m ((c : Thread nD τ).loc main_arg5) (ix1 p) := by
  have e := idx_facts t
  show V m c main_arg5 (((cfg0.win 5).blk t).view.emb (ix1 p)) = _
  rw [V_main_arg5]
  refine congrArg _ (funext fun a => Fin.ext ?_)
  match a with
  | ⟨0, _⟩ => show win0_5.index t (0 : Fin 1) * 128 + 1 * p.val = p.val; omega

theorem blk6 (c : Dev nD) (t : Fin cfg0.N) (p : Fin 3) (q : Fin 128) (r : Fin 128) :
    X6 m c t (ix3 p q r) = m ((c : Thread nD τ).loc main_arg6) (ix3 p q r) := by
  have e := idx_facts t
  show V m c main_arg6 (((cfg0.win 6).blk t).view.emb (ix3 p q r)) = _
  rw [V_main_arg6]
  refine congrArg _ (funext fun a => Fin.ext ?_)
  match a with
  | ⟨0, _⟩ => show win0_6.index t (0 : Fin 3) * 3 + 1 * p.val = p.val; omega
  | ⟨1, _⟩ => show win0_6.index t (1 : Fin 3) * 128 + 1 * q.val = q.val; omega
  | ⟨2, _⟩ => show win0_6.index t (2 : Fin 3) * 128 + 1 * r.val = r.val; omega

theorem blk7 (c : Dev nD) (t : Fin cfg0.N) (p : Fin 3) (q : Fin 128) :
    X7 m c t (ix2 p q) = m ((c : Thread nD τ).loc main_arg7) (ix2 p q) := by
  have e := idx_facts t
  show V m c main_arg7 (((cfg0.win 7).blk t).view.emb (ix2 p q)) = _
  rw [V_main_arg7]
  refine congrArg _ (funext fun a => Fin.ext ?_)
  match a with
  | ⟨0, _⟩ => show win0_7.index t (0 : Fin 2) * 3 + 1 * p.val = p.val; omega
  | ⟨1, _⟩ => show win0_7.index t (1 : Fin 2) * 128 + 1 * q.val = q.val; omega

theorem blk8 (c : Dev nD) (t : Fin cfg0.N) (p : Fin 3) (q : Fin 256) (r : Fin 128) :
    X8 m c t (ix3 p q r) = m ((c : Thread nD τ).loc main_arg8) (ix3 p q r) := by
  have e := idx_facts t
  show V m c main_arg8 (((cfg0.win 8).blk t).view.emb (ix3 p q r)) = _
  rw [V_main_arg8]
  refine congrArg _ (funext fun a => Fin.ext ?_)
  match a with
  | ⟨0, _⟩ => show win0_8.index t (0 : Fin 3) * 3 + 1 * p.val = p.val; omega
  | ⟨1, _⟩ => show win0_8.index t (1 : Fin 3) * 256 + 1 * q.val = q.val; omega
  | ⟨2, _⟩ => show win0_8.index t (2 : Fin 3) * 128 + 1 * r.val = r.val; omega

theorem blk9 (c : Dev nD) (t : Fin cfg0.N) (p : Fin 3) (q : Fin 128) :
    X9 m c t (ix2 p q) = m ((c : Thread nD τ).loc main_arg9) (ix2 p q) := by
  have e := idx_facts t
  show V m c main_arg9 (((cfg0.win 9).blk t).view.emb (ix2 p q)) = _
  rw [V_main_arg9]
  refine congrArg _ (funext fun a => Fin.ext ?_)
  match a with
  | ⟨0, _⟩ => show win0_9.index t (0 : Fin 2) * 3 + 1 * p.val = p.val; omega
  | ⟨1, _⟩ => show win0_9.index t (1 : Fin 2) * 128 + 1 * q.val = q.val; omega

theorem blk10 (c : Dev nD) (t : Fin cfg0.N) (p : Fin 128) (q : Fin 128) :
    X10 m c t (ix2 p q) = m ((c : Thread nD τ).loc main_arg10) (ix2 p q) := by
  have e := idx_facts t
  show V m c main_arg10 (((cfg0.win 10).blk t).view.emb (ix2 p q)) = _
  rw [V_main_arg10]
  refine congrArg _ (funext fun a => Fin.ext ?_)
  match a with
  | ⟨0, _⟩ => show win0_10.index t (0 : Fin 2) * 128 + 1 * p.val = p.val; omega
  | ⟨1, _⟩ => show win0_10.index t (1 : Fin 2) * 128 + 1 * q.val = q.val; omega

theorem blk11 (c : Dev nD) (t : Fin cfg0.N) (p : Fin 128) :
    X11 m c t (ix1 p) = m ((c : Thread nD τ).loc main_arg11) (ix1 p) := by
  have e := idx_facts t
  show V m c main_arg11 (((cfg0.win 11).blk t).view.emb (ix1 p)) = _
  rw [V_main_arg11]
  refine congrArg _ (funext fun a => Fin.ext ?_)
  match a with
  | ⟨0, _⟩ => show win0_11.index t (0 : Fin 1) * 128 + 1 * p.val = p.val; omega

theorem blk12 (c : Dev nD) (t : Fin cfg0.N) (p : Fin 128) (q : Fin 128) :
    X12 m c t (ix2 p q) = m ((c : Thread nD τ).loc main_arg12) (ix2 p q) := by
  have e := idx_facts t
  show V m c main_arg12 (((cfg0.win 12).blk t).view.emb (ix2 p q)) = _
  rw [V_main_arg12]
  refine congrArg _ (funext fun a => Fin.ext ?_)
  match a with
  | ⟨0, _⟩ => show win0_12.index t (0 : Fin 2) * 128 + 1 * p.val = p.val; omega
  | ⟨1, _⟩ => show win0_12.index t (1 : Fin 2) * 128 + 1 * q.val = q.val; omega

theorem blk13 (c : Dev nD) (t : Fin cfg0.N) (p : Fin 128) :
    X13 m c t (ix1 p) = m ((c : Thread nD τ).loc main_arg13) (ix1 p) := by
  have e := idx_facts t
  show V m c main_arg13 (((cfg0.win 13).blk t).view.emb (ix1 p)) = _
  rw [V_main_arg13]
  refine congrArg _ (funext fun a => Fin.ext ?_)
  match a with
  | ⟨0, _⟩ => show win0_13.index t (0 : Fin 1) * 128 + 1 * p.val = p.val; omega

/-- The blocks at point `t` are batch element `t`'s inputs. -/
theorem blocks_eq (c : Dev nD) (t : Fin cfg0.N) :
    ofBlocks (X0 m c t) (X1 m c t) (X2 m c t) (X3 m c t) (X4 m c t) (X5 m c t) (X6 m c t) (X7 m c t) (X8 m c t) (X9 m c t) (X10 m c t) (X11 m c t) (X12 m c t) (X13 m c t) = inpAt m c (tb t) := by
  simp only [ofBlocks, inpAt, ofArrays, Inp.mk.injEq]
  exact ⟨funext fun i => funext fun f => blk0 m c t i f, funext fun j => blk1 m c t j,
    funext fun p => funext fun q => blk2 m c t p q,
    funext fun p => blk3 m c t p,
    funext fun p => funext fun q => blk4 m c t p q,
    funext fun p => blk5 m c t p,
    funext fun p => funext fun q => funext fun r => blk6 m c t p q r,
    funext fun p => funext fun q => blk7 m c t p q,
    funext fun p => funext fun q => funext fun r => blk8 m c t p q r,
    funext fun p => funext fun q => blk9 m c t p q,
    funext fun p => funext fun q => blk10 m c t p q,
    funext fun p => blk11 m c t p,
    funext fun p => funext fun q => blk12 m c t p q,
    funext fun p => blk13 m c t p⟩

/-- What the body leaves in the output block at point `t`: batch element `t`'s output. -/
theorem out_at (c : Dev nD) (t : Fin cfg0.N) (y : S1x1x128.Idx) :
    out0_14 (X0 m c t) (X1 m c t) (X2 m c t) (X3 m c t) (X4 m c t) (X5 m c t) (X6 m c t) (X7 m c t) (X8 m c t) (X9 m c t) (X10 m c t) (X11 m c t) (X12 m c t) (X13 m c t) y = (inpAt m c (tb t)).out (y 2) := by
  obtain ⟨k, rfl⟩ : ∃ k : Fin 128, y = ix3 0 0 k := ⟨y 2, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  rw [K.out_apply, blocks_eq]

/-- WHAT POINT `t` WRITES BACK is block `t` of `G`. -/
theorem flushed_eq (c : Dev nD) (t : Fin cfg0.N) :
    (dats m 0 c).flushed 14 t = ((cfg0.win 14).blk t).view.read (Elt Ideal) (G m c) := by
  have e := idx_facts t
  show (cfg0.win 14).cut (grid0.coords t) ((dats m 0 c).after 14 t) = _
  rw [after0_14]
  funext y
  refine (out_at m c t y).trans ?_
  have hy0 : (y 0).val < 1 := (y 0).isLt
  have h0 : ((cfg0.win 14).blk t).view.emb y 0 = tb t :=
    Fin.ext (by show win0_14.index t (0 : Fin 3) * 1 + 1 * (y 0).val = t.val; omega)
  have h2 : ((cfg0.win 14).blk t).view.emb y 2 = y 2 :=
    Fin.ext (by show win0_14.index t (2 : Fin 3) * 128 + 1 * (y 2).val = (y 2).val; omega)
  show _ = (inpAt m c (((cfg0.win 14).blk t).view.emb y 0)).out (((cfg0.win 14).blk t).view.emb y 2)
  rw [h0, h2]

/-- An index of the output array is in point `t`'s block iff each coordinate is in the block's range on its axis. -/
theorem mem_blk14 (t : Fin cfg0.N) (i : S128x1x128.Idx) :
    i ∈ ((cfg0.win 14).blk t).view.set ↔ ∀ a : Fin 3, win0_14.index t a * S1x1x128.size a ≤ (i a).val ∧ (i a).val < win0_14.index t a * S1x1x128.size a + S1x1x128.size a := by
  show i ∈ ((View.whole main_v1).slice (win0_14.rect t)).set ↔ _
  rw [View.set_slice_whole, Rect.mem_set_unit]
  exact Iff.rfl

/-- The 128 rows tile the output array: row `b` is point `b`'s. -/
theorem cover (i : S128x1x128.Idx) :
    ∃ t : Fin cfg0.N, (cfg0.win 14).flush t = true ∧ i ∈ ((cfg0.win 14).blk t).view.set := by
  have hi0 : (i 0).val < 128 := (i 0).isLt
  have hi1 : (i 1).val < 1 := (i 1).isLt
  have hi2 : (i 2).val < 128 := (i 2).isLt
  obtain ⟨-, -, -, -, -, -, e0, e1, e2, -⟩ := idx_facts ⟨(i 0).val, hi0⟩
  have e0' : win0_14.index ⟨(i 0).val, hi0⟩ (0 : Fin 3) = (i 0).val := e0
  refine ⟨⟨(i 0).val, hi0⟩, flush0_14 _, ?_⟩
  rw [mem_blk14]
  intro a
  match a with
  | ⟨0, _⟩ => show win0_14.index ⟨(i 0).val, hi0⟩ (0 : Fin 3) * 1 ≤ (i 0).val ∧ (i 0).val < win0_14.index ⟨(i 0).val, hi0⟩ (0 : Fin 3) * 1 + 1; omega
  | ⟨1, _⟩ => show win0_14.index ⟨(i 0).val, hi0⟩ (1 : Fin 3) * 1 ≤ (i 1).val ∧ (i 1).val < win0_14.index ⟨(i 0).val, hi0⟩ (1 : Fin 3) * 1 + 1; omega
  | ⟨2, _⟩ => show win0_14.index ⟨(i 0).val, hi0⟩ (2 : Fin 3) * 128 ≤ (i 2).val ∧ (i 2).val < win0_14.index ⟨(i 0).val, hi0⟩ (2 : Fin 3) * 128 + 128; omega

/-- THE OUTPUT ARRAY after the region. -/
theorem final (c : Dev nD) : (dats m 0 c).arrAt 14 cfg0.N = G m c :=
  (dats m 0 c).arrAt_eq_of_cover 14 (G m c) (fun t _ => flushed_eq m c t) cover

/-- The reshape after the region reads that array at `(b, 0, k)`. -/
theorem tail_v2 (c : Dev nD) :
    Pipeline.afterTail₀ cfgs (dats m) 0 (V0 m) [hostOps1] c main_v2 = result m c := by
  unfold Pipeline.afterTail₀
  show StableHlo.after hostOps1 _ (Proc.devRef .tc main_v2) = _
  after_results
  funext j
  obtain ⟨p, q, rfl⟩ : ∃ (p q : Fin 128), j = ix2 p q := ⟨j 0, j 1, eq_ix2 j⟩
  have hw := (Pipeline.withArrays_arr spec0 launch0.win.arr_inj c (V0 m c) (fun w => (dats m 0 c).arrAt w cfg0.N) 14).trans (final m c)
  exact (congrArg (fun X => shapeCast S128x128 X shapeCasts_S128x1x128_S128x128 (ix2 p q)) hw).trans
    (shapeCast_a1b_ab_apply (G m c) _ p q)

/-- THE RUN: every weakly fair execution ends with the result at the network's output and the arguments as launched. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c)))⟩)
    (run_main m ρ)

end Cert.Nmp.KRun

end
-- ==== Proof.RefLayout.lean ====
/-
  The reference's layout operations — broadcasts, slabs of the stacked weights, the join along the feature axis —
  and its row maximum, read at explicit coordinates. Each only moves entries (or folds `max` over a row).
-/
import proofs.«179744_j58248346468777_1_alg».proof.Proof.RefRead
import proofs.«179744_j58248346468777_1_alg».proof.Proof.Inputs
import proofs.«179744_j58248346468777_1_alg».proof.Proof.LibRank2
import Idealize.ShloMosaic.PureOps.Reduce

noncomputable section

open scoped BigOperators

namespace Cert.Nmp.R

open Idealize.ShloMosaic Idealize.ShloMosaic.ValueIdx Cert.ReferenceIdeal Cert.ReferenceIdeal.Gen Cert.ReferenceIdeal.PRead Cert.Nmp Cert.Lib2

/-- A rank-0 array's one index. -/
abbrev i0 : S_.Idx := fun a => a.elim0

/-! ## Broadcasts of the reference, read at coordinates -/

theorem bcast_vec_111 (y : (⟨S128, .f32⟩ : BufTy).Contents (Elt Ideal)) (u v : Fin 1) (k : Fin 128) :
    broadcastInDim S1x1x128 (no_index ![2]) bcast_S128_S1x1x128_2 y (ix3 u v k) = y (ix1 k) :=
  broadcastInDim_apply _ bcast_S128_S1x1x128_2 y (ix3 u v k) (ix1 k) (fun a => match a with
    | ⟨0, _⟩ => by show k.val = if (128 : Nat) = 1 then 0 else k.val; rw [if_neg (by decide)])

theorem bcast_111_full (y : (⟨S1x1x128, .f32⟩ : BufTy).Contents (Elt Ideal)) (b : Fin 128) (i : Fin 512) (k : Fin 128) :
    broadcastInDim S128x512x128 (no_index ![0, 1, 2]) bcast_S1x1x128_S128x512x128_0_1_2 y (ix3 b i k) = y (ix3 0 0 k) :=
  broadcastInDim_apply _ bcast_S1x1x128_S128x512x128_0_1_2 y (ix3 b i k) (ix3 0 0 k) (fun a => match a with
    | ⟨0, _⟩ => by show 0 = if (1 : Nat) = 1 then 0 else b.val; rw [if_pos rfl]
    | ⟨1, _⟩ => by show 0 = if (1 : Nat) = 1 then 0 else i.val; rw [if_pos rfl]
    | ⟨2, _⟩ => by show k.val = if (128 : Nat) = 1 then 0 else k.val; rw [if_neg (by decide)])

theorem bcast_scalar_full (y : (⟨S_, .f32⟩ : BufTy).Contents (Elt Ideal)) (j : S128x512x128.Idx) :
    broadcastInDim S128x512x128 (no_index ![]) bcast_S_S128x512x128 y j = y i0 :=
  broadcastInDim_apply _ bcast_S_S128x512x128 y j i0 (fun a => a.elim0)
theorem bcast_scalar_sq (y : (⟨S_, .f32⟩ : BufTy).Contents (Elt Ideal)) (j : S128x512x512.Idx) :
    broadcastInDim S128x512x512 (no_index ![]) bcast_S_S128x512x512 y j = y i0 :=
  broadcastInDim_apply _ bcast_S_S128x512x512 y j i0 (fun a => a.elim0)
theorem bcast_scalar_row (y : (⟨S_, .f32⟩ : BufTy).Contents (Elt Ideal)) (j : S128x1x512.Idx) :
    broadcastInDim S128x1x512 (no_index ![]) bcast_S_S128x1x512 y j = y i0 :=
  broadcastInDim_apply _ bcast_S_S128x1x512 y j i0 (fun a => a.elim0)
theorem bcast_scalar_nodes (y : (⟨S_, .f32⟩ : BufTy).Contents (Elt Ideal)) (j : S128x512.Idx) :
    broadcastInDim S128x512 (no_index ![]) bcast_S_S128x512 y j = y i0 :=
  broadcastInDim_apply _ bcast_S_S128x512 y j i0 (fun a => a.elim0)
theorem bcast_scalar_out (y : (⟨S_, .f32⟩ : BufTy).Contents (Elt Ideal)) (j : S128x128.Idx) :
    broadcastInDim S128x128 (no_index ![]) bcast_S_S128x128 y j = y i0 :=
  broadcastInDim_apply _ bcast_S_S128x128 y j i0 (fun a => a.elim0)

theorem bcast_col (y : (⟨S128x512, .f32⟩ : BufTy).Contents (Elt Ideal)) (b : Fin 128) (i : Fin 512) (u : Fin 1) :
    broadcastInDim S128x512x1 (no_index ![0, 1]) bcast_S128x512_S128x512x1_0_1 y (ix3 b i u) = y (ix2 b i) :=
  broadcastInDim_apply _ bcast_S128x512_S128x512x1_0_1 y (ix3 b i u) (ix2 b i) (fun a => match a with
    | ⟨0, _⟩ => by show b.val = if (128 : Nat) = 1 then 0 else b.val; rw [if_neg (by decide)]
    | ⟨1, _⟩ => by show i.val = if (512 : Nat) = 1 then 0 else i.val; rw [if_neg (by decide)])

theorem bcast_row (y : (⟨S128x512, .f32⟩ : BufTy).Contents (Elt Ideal)) (b : Fin 128) (u : Fin 1) (j : Fin 512) :
    broadcastInDim S128x1x512 (no_index ![0, 2]) bcast_S128x512_S128x1x512_0_2 y (ix3 b u j) = y (ix2 b j) :=
  broadcastInDim_apply _ bcast_S128x512_S128x1x512_0_2 y (ix3 b u j) (ix2 b j) (fun a => match a with
    | ⟨0, _⟩ => by show b.val = if (128 : Nat) = 1 then 0 else b.val; rw [if_neg (by decide)]
    | ⟨1, _⟩ => by show j.val = if (512 : Nat) = 1 then 0 else j.val; rw [if_neg (by decide)])

theorem bcast_col_sq (y : (⟨S128x512x1, .f32⟩ : BufTy).Contents (Elt Ideal)) (b : Fin 128) (i j : Fin 512) :
    broadcastInDim S128x512x512 (no_index ![0, 1, 2]) bcast_S128x512x1_S128x512x512_0_1_2 y (ix3 b i j) = y (ix3 b i 0) :=
  broadcastInDim_apply _ bcast_S128x512x1_S128x512x512_0_1_2 y (ix3 b i j) (ix3 b i 0) (fun a => match a with
    | ⟨0, _⟩ => by show b.val = if (128 : Nat) = 1 then 0 else b.val; rw [if_neg (by decide)]
    | ⟨1, _⟩ => by show i.val = if (512 : Nat) = 1 then 0 else i.val; rw [if_neg (by decide)]
    | ⟨2, _⟩ => by show 0 = if (1 : Nat) = 1 then 0 else j.val; rw [if_pos rfl])

theorem bcast_row_sq (y : (⟨S128x1x512, .f32⟩ : BufTy).Contents (Elt Ideal)) (b : Fin 128) (i j : Fin 512) :
    broadcastInDim S128x512x512 (no_index ![0, 1, 2]) bcast_S128x1x512_S128x512x512_0_1_2 y (ix3 b i j) = y (ix3 b 0 j) :=
  broadcastInDim_apply _ bcast_S128x1x512_S128x512x512_0_1_2 y (ix3 b i j) (ix3 b 0 j) (fun a => match a with
    | ⟨0, _⟩ => by show b.val = if (128 : Nat) = 1 then 0 else b.val; rw [if_neg (by decide)]
    | ⟨1, _⟩ => by show 0 = if (1 : Nat) = 1 then 0 else i.val; rw [if_pos rfl]
    | ⟨2, _⟩ => by show j.val = if (512 : Nat) = 1 then 0 else j.val; rw [if_neg (by decide)])

theorem bcast_col_feat (y : (⟨S128x512x1, .f32⟩ : BufTy).Contents (Elt Ideal)) (b : Fin 128) (i : Fin 512) (k : Fin 128) :
    broadcastInDim S128x512x128 (no_index ![0, 1, 2]) bcast_S128x512x1_S128x512x128_0_1_2 y (ix3 b i k) = y (ix3 b i 0) :=
  broadcastInDim_apply _ bcast_S128x512x1_S128x512x128_0_1_2 y (ix3 b i k) (ix3 b i 0) (fun a => match a with
    | ⟨0, _⟩ => by show b.val = if (128 : Nat) = 1 then 0 else b.val; rw [if_neg (by decide)]
    | ⟨1, _⟩ => by show i.val = if (512 : Nat) = 1 then 0 else i.val; rw [if_neg (by decide)]
    | ⟨2, _⟩ => by show 0 = if (1 : Nat) = 1 then 0 else k.val; rw [if_pos rfl])

theorem bcast_vec_1 (y : (⟨S128, .f32⟩ : BufTy).Contents (Elt Ideal)) (u : Fin 1) (k : Fin 128) :
    broadcastInDim S1x128 (no_index ![1]) bcast_S128_S1x128_1 y (ix2 u k) = y (ix1 k) :=
  broadcastInDim_apply _ bcast_S128_S1x128_1 y (ix2 u k) (ix1 k) (fun a => match a with
    | ⟨0, _⟩ => by show k.val = if (128 : Nat) = 1 then 0 else k.val; rw [if_neg (by decide)])

theorem bcast_1_rows (y : (⟨S1x128, .f32⟩ : BufTy).Contents (Elt Ideal)) (b k : Fin 128) :
    broadcastInDim S128x128 (no_index ![0, 1]) bcast_S1x128_S128x128_0_1 y (ix2 b k) = y (ix2 0 k) :=
  broadcastInDim_apply _ bcast_S1x128_S128x128_0_1 y (ix2 b k) (ix2 0 k) (fun a => match a with
    | ⟨0, _⟩ => by show 0 = if (1 : Nat) = 1 then 0 else b.val; rw [if_pos rfl]
    | ⟨1, _⟩ => by show k.val = if (128 : Nat) = 1 then 0 else k.val; rw [if_neg (by decide)])

/-! ## Slabs of the stacked weights -/

theorem slice_Wm0 (x6 : (⟨S3x128x128, .f32⟩ : BufTy).Contents (Elt Ideal)) (p q : Fin 128) :
    extractStridedSlice S1x128x128 (no_index ![0, 0, 0]) x6 slices_S3x128x128_S1x128x128_0_0_0 (ix3 0 p q) = x6 (ix3 0 p q) :=
  extractStridedSlice_apply _ x6 slices_S3x128x128_S1x128x128_0_0_0 (ix3 0 p q) (ix3 0 p q) (fun a => match a with
    | ⟨0, _⟩ => by show (0 : Nat) = 0 + 0; rfl
    | ⟨1, _⟩ => by show p.val = 0 + p.val; omega
    | ⟨2, _⟩ => by show q.val = 0 + q.val; omega)
theorem slice_Wm1 (x6 : (⟨S3x128x128, .f32⟩ : BufTy).Contents (Elt Ideal)) (p q : Fin 128) :
    extractStridedSlice S1x128x128 (no_index ![1, 0, 0]) x6 slices_S3x128x128_S1x128x128_1_0_0 (ix3 0 p q) = x6 (ix3 1 p q) :=
  extractStridedSlice_apply _ x6 slices_S3x128x128_S1x128x128_1_0_0 (ix3 0 p q) (ix3 1 p q) (fun a => match a with
    | ⟨0, _⟩ => by show (1 : Nat) = 1 + 0; rfl
    | ⟨1, _⟩ => by show p.val = 0 + p.val; omega
    | ⟨2, _⟩ => by show q.val = 0 + q.val; omega)
theorem slice_Wm2 (x6 : (⟨S3x128x128, .f32⟩ : BufTy).Contents (Elt Ideal)) (p q : Fin 128) :
    extractStridedSlice S1x128x128 (no_index ![2, 0, 0]) x6 slices_S3x128x128_S1x128x128_2_0_0 (ix3 0 p q) = x6 (ix3 2 p q) :=
  extractStridedSlice_apply _ x6 slices_S3x128x128_S1x128x128_2_0_0 (ix3 0 p q) (ix3 2 p q) (fun a => match a with
    | ⟨0, _⟩ => by show (2 : Nat) = 2 + 0; rfl
    | ⟨1, _⟩ => by show p.val = 0 + p.val; omega
    | ⟨2, _⟩ => by show q.val = 0 + q.val; omega)
theorem slice_Wu0 (x8 : (⟨S3x256x128, .f32⟩ : BufTy).Contents (Elt Ideal)) (p : Fin 256) (q : Fin 128) :
    extractStridedSlice S1x256x128 (no_index ![0, 0, 0]) x8 slices_S3x256x128_S1x256x128_0_0_0 (ix3 0 p q) = x8 (ix3 0 p q) :=
  extractStridedSlice_apply _ x8 slices_S3x256x128_S1x256x128_0_0_0 (ix3 0 p q) (ix3 0 p q) (fun a => match a with
    | ⟨0, _⟩ => by show (0 : Nat) = 0 + 0; rfl
    | ⟨1, _⟩ => by show p.val = 0 + p.val; omega
    | ⟨2, _⟩ => by show q.val = 0 + q.val; omega)
theorem slice_Wu1 (x8 : (⟨S3x256x128, .f32⟩ : BufTy).Contents (Elt Ideal)) (p : Fin 256) (q : Fin 128) :
    extractStridedSlice S1x256x128 (no_index ![1, 0, 0]) x8 slices_S3x256x128_S1x256x128_1_0_0 (ix3 0 p q) = x8 (ix3 1 p q) :=
  extractStridedSlice_apply _ x8 slices_S3x256x128_S1x256x128_1_0_0 (ix3 0 p q) (ix3 1 p q) (fun a => match a with
    | ⟨0, _⟩ => by show (1 : Nat) = 1 + 0; rfl
    | ⟨1, _⟩ => by show p.val = 0 + p.val; omega
    | ⟨2, _⟩ => by show q.val = 0 + q.val; omega)
theorem slice_Wu2 (x8 : (⟨S3x256x128, .f32⟩ : BufTy).Contents (Elt Ideal)) (p : Fin 256) (q : Fin 128) :
    extractStridedSlice S1x256x128 (no_index ![2, 0, 0]) x8 slices_S3x256x128_S1x256x128_2_0_0 (ix3 0 p q) = x8 (ix3 2 p q) :=
  extractStridedSlice_apply _ x8 slices_S3x256x128_S1x256x128_2_0_0 (ix3 0 p q) (ix3 2 p q) (fun a => match a with
    | ⟨0, _⟩ => by show (2 : Nat) = 2 + 0; rfl
    | ⟨1, _⟩ => by show p.val = 0 + p.val; omega
    | ⟨2, _⟩ => by show q.val = 0 + q.val; omega)
theorem slice_b0 (x7 : (⟨S3x128, .f32⟩ : BufTy).Contents (Elt Ideal)) (p : Fin 128) :
    extractStridedSlice S1x128 (no_index ![0, 0]) x7 slices_S3x128_S1x128_0_0 (ix2 0 p) = x7 (ix2 0 p) :=
  extractStridedSlice_apply _ x7 slices_S3x128_S1x128_0_0 (ix2 0 p) (ix2 0 p) (fun a => match a with
    | ⟨0, _⟩ => by show (0 : Nat) = 0 + 0; rfl
    | ⟨1, _⟩ => by show p.val = 0 + p.val; omega)
theorem slice_b1 (x7 : (⟨S3x128, .f32⟩ : BufTy).Contents (Elt Ideal)) (p : Fin 128) :
    extractStridedSlice S1x128 (no_index ![1, 0]) x7 slices_S3x128_S1x128_1_0 (ix2 0 p) = x7 (ix2 1 p) :=
  extractStridedSlice_apply _ x7 slices_S3x128_S1x128_1_0 (ix2 0 p) (ix2 1 p) (fun a => match a with
    | ⟨0, _⟩ => by show (1 : Nat) = 1 + 0; rfl
    | ⟨1, _⟩ => by show p.val = 0 + p.val; omega)
theorem slice_b2 (x7 : (⟨S3x128, .f32⟩ : BufTy).Contents (Elt Ideal)) (p : Fin 128) :
    extractStridedSlice S1x128 (no_index ![2, 0]) x7 slices_S3x128_S1x128_2_0 (ix2 0 p) = x7 (ix2 2 p) :=
  extractStridedSlice_apply _ x7 slices_S3x128_S1x128_2_0 (ix2 0 p) (ix2 2 p) (fun a => match a with
    | ⟨0, _⟩ => by show (2 : Nat) = 2 + 0; rfl
    | ⟨1, _⟩ => by show p.val = 0 + p.val; omega)

/-! ## The row maximum and the join -/

theorem reduce_max_row (X : (⟨S128x512x512, .f32⟩ : BufTy).Contents (Elt Ideal)) (init : (⟨S_, .f32⟩ : BufTy).Contents (Elt Ideal)) (b : Fin 128) (i : Fin 512) :
    Host.reduce (FloatOps.maximumf (F := Ideal) (φ := .f32)) X init reducesTo_S128x512x512_S128x512_d2 h_S_ (ix2 b i)
      = (Finset.univ : Finset (Fin 512)).fold max (init (Shape.Idx.first h_S_)) (fun j => X (ix3 b i j)) :=
  (Host.reduce_eq_fold_single (FloatOps.maximumf (F := Ideal) (φ := .f32)) X init reducesTo_S128x512x512_S128x512_d2
      (by decide) h_S_ (ix2 b i)).trans
    (congrArg (fun g => (Finset.univ : Finset (Fin 512)).fold max (init (Shape.Idx.first h_S_)) g)
      (funext fun j => congrArg X
        (funext fun d => Fin.ext (by match d with | ⟨0, _⟩ => rfl | ⟨1, _⟩ => rfl | ⟨2, _⟩ => rfl))))

theorem cat_apply (H G : (⟨S128x512x128, .f32⟩ : BufTy).Contents (Elt Ideal)) (b : Fin 128) (i : Fin 512) (q : Fin 256) :
    concatenate S128x512x256 2 [⟨S128x512x128, H⟩, ⟨S128x512x128, G⟩] concatenates_S128x512x128_S128x512x128_S128x512x256_d2 (ix3 b i q)
      = cat (fun a c => H (ix3 b a c)) (fun a c => G (ix3 b a c)) i q :=
  Cert.Lib2.concatenate_axis2_apply H G _ rfl b i q

end Cert.Nmp.R

end
-- ==== Proof.RefAt.lean ====
/-
  Each layout operation of the reference, read at explicit coordinates and named by the stage it produces: a
  constant is its word everywhere; a bias is broadcast over batch and node; the squared norms, the mask and the
  softmax's row maximum and row sum are broadcast over rows or columns; round `t` uses slab `t` of each stacked
  weight array; a join takes its first 128 features from the node states and the rest from the aggregated messages.
-/
import proofs.«179744_j58248346468777_1_alg».proof.Proof.RefLayout
import proofs.«179744_j58248346468777_1_alg».proof.Proof.Inputs
import proofs.«179744_j58248346468777_1_alg».proof.Proof.LibRank2
import Idealize.ShloMosaic.PureOps.Reduce

noncomputable section

open scoped BigOperators

namespace Cert.Nmp.R

open Idealize.ShloMosaic Idealize.ShloMosaic.ValueIdx Cert.ReferenceIdeal Cert.ReferenceIdeal.Gen Cert.ReferenceIdeal.PRead Cert.Nmp Cert.Lib2

/-! ## Constants, read anywhere -/

theorem call0_v0_at (j : S128x512x128.Idx) : val_main_call0_v0 (F := Ideal) j = Ideal.ofBits .f32 0x00000000#32 :=
  (bcast_scalar_full (val_main_call0_cst (F := Ideal)) j).trans rfl
theorem call1_v0_at (j : S128x512x128.Idx) : val_main_call1_v0 (F := Ideal) j = Ideal.ofBits .f32 0x00000000#32 :=
  (bcast_scalar_full (val_main_call1_cst (F := Ideal)) j).trans rfl
theorem call3_v0_at (j : S128x512x128.Idx) : val_main_call3_v0 (F := Ideal) j = Ideal.ofBits .f32 0x00000000#32 :=
  (bcast_scalar_full (val_main_call3_cst (F := Ideal)) j).trans rfl
theorem call4_v0_at (j : S128x512x128.Idx) : val_main_call4_v0 (F := Ideal) j = Ideal.ofBits .f32 0x00000000#32 :=
  (bcast_scalar_full (val_main_call4_cst (F := Ideal)) j).trans rfl
theorem call5_v0_at (j : S128x512x128.Idx) : val_main_call5_v0 (F := Ideal) j = Ideal.ofBits .f32 0x00000000#32 :=
  (bcast_scalar_full (val_main_call5_cst (F := Ideal)) j).trans rfl
theorem call6_v0_at (j : S128x512x128.Idx) : val_main_call6_v0 (F := Ideal) j = Ideal.ofBits .f32 0x00000000#32 :=
  (bcast_scalar_full (val_main_call6_cst (F := Ideal)) j).trans rfl
theorem call7_v0_at (j : S128x512x128.Idx) : val_main_call7_v0 (F := Ideal) j = Ideal.ofBits .f32 0x00000000#32 :=
  (bcast_scalar_full (val_main_call7_cst (F := Ideal)) j).trans rfl
theorem call8_v0_at (j : S128x512x128.Idx) : val_main_call8_v0 (F := Ideal) j = Ideal.ofBits .f32 0x00000000#32 :=
  (bcast_scalar_full (val_main_call8_cst (F := Ideal)) j).trans rfl
theorem call9_v0_at (j : S128x128.Idx) : val_main_call9_v0 (F := Ideal) j = Ideal.ofBits .f32 0x00000000#32 :=
  (bcast_scalar_out (val_main_call9_cst (F := Ideal)) j).trans rfl
theorem v18_at (j : S128x512x512.Idx) : val_main_v18 (F := Ideal) j = Ideal.ofBits .f32 0x40000000#32 :=
  (bcast_scalar_sq (val_main_cst_0 (F := Ideal)) j).trans rfl
theorem v23_at (j : S128x1x512.Idx) : val_main_v23 (F := Ideal) j = Ideal.ofBits .f32 0x00000000#32 :=
  (bcast_scalar_row (val_main_cst_1 (F := Ideal)) j).trans rfl
theorem call2_v0_at (j : S128x1x512.Idx) : val_main_call2_v0 (F := Ideal) j = Ideal.ofBits .f32 0x00000000#32 :=
  (bcast_scalar_row (val_main_cst_2 (F := Ideal)) j).trans rfl
theorem call2_v1_at (j : S128x1x512.Idx) : val_main_call2_v1 (F := Ideal) j = Ideal.ofBits .f32 0xCE6E6B28#32 :=
  (bcast_scalar_row (val_main_cst_3 (F := Ideal)) j).trans rfl
theorem v30_at (j : S128x512.Idx) : val_main_v30 (F := Ideal) j = Ideal.ofBits .f32 0xFF800000#32 :=
  (bcast_scalar_nodes (val_main_cst_5 (F := Ideal)) j).trans rfl

/-! ## The biases, broadcast over batch and node -/

theorem v2_at (a3 : (⟨S128, .f32⟩ : BufTy).Contents (Elt Ideal)) (b : Fin 128) (i : Fin 512) (k : Fin 128) : val_main_v2 (F := Ideal) a3 (ix3 b i k) = a3 (ix1 k) :=
  (bcast_111_full (val_main_v1 (F := Ideal) a3) b i k).trans (bcast_vec_111 a3 0 0 k)
theorem v7_at (a5 : (⟨S128, .f32⟩ : BufTy).Contents (Elt Ideal)) (b : Fin 128) (i : Fin 512) (k : Fin 128) : val_main_v7 (F := Ideal) a5 (ix3 b i k) = a5 (ix1 k) :=
  (bcast_111_full (val_main_v6 (F := Ideal) a5) b i k).trans (bcast_vec_111 a5 0 0 k)
theorem v47_at (a7 : (⟨S3x128, .f32⟩ : BufTy).Contents (Elt Ideal)) (b : Fin 128) (i : Fin 512) (k : Fin 128) : val_main_v47 (F := Ideal) a7 (ix3 b i k) = a7 (ix2 0 k) :=
  (bcast_111_full (val_main_v46 (F := Ideal) a7) b i k).trans ((bcast_vec_111 (val_main_v45 (F := Ideal) a7) 0 0 k).trans ((shapeCast_1a_a_apply (val_main_v44 (F := Ideal) a7) _ k).trans (slice_b0 a7 k)))
theorem v58_at (a9 : (⟨S3x128, .f32⟩ : BufTy).Contents (Elt Ideal)) (b : Fin 128) (i : Fin 512) (k : Fin 128) : val_main_v58 (F := Ideal) a9 (ix3 b i k) = a9 (ix2 0 k) :=
  (bcast_111_full (val_main_v57 (F := Ideal) a9) b i k).trans ((bcast_vec_111 (val_main_v56 (F := Ideal) a9) 0 0 k).trans ((shapeCast_1a_a_apply (val_main_v55 (F := Ideal) a9) _ k).trans (slice_b0 a9 k)))
theorem v69_at (a7 : (⟨S3x128, .f32⟩ : BufTy).Contents (Elt Ideal)) (b : Fin 128) (i : Fin 512) (k : Fin 128) : val_main_v69 (F := Ideal) a7 (ix3 b i k) = a7 (ix2 1 k) :=
  (bcast_111_full (val_main_v68 (F := Ideal) a7) b i k).trans ((bcast_vec_111 (val_main_v67 (F := Ideal) a7) 0 0 k).trans ((shapeCast_1a_a_apply (val_main_v66 (F := Ideal) a7) _ k).trans (slice_b1 a7 k)))
theorem v80_at (a9 : (⟨S3x128, .f32⟩ : BufTy).Contents (Elt Ideal)) (b : Fin 128) (i : Fin 512) (k : Fin 128) : val_main_v80 (F := Ideal) a9 (ix3 b i k) = a9 (ix2 1 k) :=
  (bcast_111_full (val_main_v79 (F := Ideal) a9) b i k).trans ((bcast_vec_111 (val_main_v78 (F := Ideal) a9) 0 0 k).trans ((shapeCast_1a_a_apply (val_main_v77 (F := Ideal) a9) _ k).trans (slice_b1 a9 k)))
theorem v91_at (a7 : (⟨S3x128, .f32⟩ : BufTy).Contents (Elt Ideal)) (b : Fin 128) (i : Fin 512) (k : Fin 128) : val_main_v91 (F := Ideal) a7 (ix3 b i k) = a7 (ix2 2 k) :=
  (bcast_111_full (val_main_v90 (F := Ideal) a7) b i k).trans ((bcast_vec_111 (val_main_v89 (F := Ideal) a7) 0 0 k).trans ((shapeCast_1a_a_apply (val_main_v88 (F := Ideal) a7) _ k).trans (slice_b2 a7 k)))
theorem v102_at (a9 : (⟨S3x128, .f32⟩ : BufTy).Contents (Elt Ideal)) (b : Fin 128) (i : Fin 512) (k : Fin 128) : val_main_v102 (F := Ideal) a9 (ix3 b i k) = a9 (ix2 2 k) :=
  (bcast_111_full (val_main_v101 (F := Ideal) a9) b i k).trans ((bcast_vec_111 (val_main_v100 (F := Ideal) a9) 0 0 k).trans ((shapeCast_1a_a_apply (val_main_v99 (F := Ideal) a9) _ k).trans (slice_b2 a9 k)))
theorem v112_at (a11 : (⟨S128, .f32⟩ : BufTy).Contents (Elt Ideal)) (b k : Fin 128) : val_main_v112 (F := Ideal) a11 (ix2 b k) = a11 (ix1 k) :=
  (bcast_1_rows (val_main_v111 (F := Ideal) a11) b k).trans (bcast_vec_1 a11 0 k)
theorem v117_at (a13 : (⟨S128, .f32⟩ : BufTy).Contents (Elt Ideal)) (b k : Fin 128) : val_main_v117 (F := Ideal) a13 (ix2 b k) = a13 (ix1 k) :=
  (bcast_1_rows (val_main_v116 (F := Ideal) a13) b k).trans (bcast_vec_1 a13 0 k)

/-! ## The squared norms over rows and columns; the mask over columns and over features -/

theorem v14_at (a0 : (⟨S128x512x8, .f32⟩ : BufTy).Contents (Elt Ideal)) (b : Fin 128) (i j : Fin 512) : val_main_v14 (F := Ideal) a0 (ix3 b i j) = val_main_v11 (F := Ideal) a0 (ix2 b i) :=
  (bcast_col_sq (val_main_v12 (F := Ideal) a0) b i j).trans (bcast_col (val_main_v11 (F := Ideal) a0) b i 0)
theorem v15_at (a0 : (⟨S128x512x8, .f32⟩ : BufTy).Contents (Elt Ideal)) (b : Fin 128) (i j : Fin 512) : val_main_v15 (F := Ideal) a0 (ix3 b i j) = val_main_v11 (F := Ideal) a0 (ix2 b j) :=
  (bcast_row_sq (val_main_v13 (F := Ideal) a0) b i j).trans (bcast_row (val_main_v11 (F := Ideal) a0) b 0 j)
theorem v22_at (a1 : (⟨S128x512, .f32⟩ : BufTy).Contents (Elt Ideal)) (b : Fin 128) (u : Fin 1) (j : Fin 512) : val_main_v22 (F := Ideal) a1 (ix3 b u j) = a1 (ix2 b j) :=
  bcast_row a1 b u j
theorem v27_at (a1 : (⟨S128x512, .f32⟩ : BufTy).Contents (Elt Ideal)) (b : Fin 128) (i j : Fin 512) : val_main_v27 (F := Ideal) a1 (ix3 b i j) = val_main_v26 (F := Ideal) a1 (ix3 b 0 j) :=
  bcast_row_sq (val_main_v26 (F := Ideal) a1) b i j
theorem v61_at (a1 : (⟨S128x512, .f32⟩ : BufTy).Contents (Elt Ideal)) (b : Fin 128) (i : Fin 512) (k : Fin 128) : val_main_v61 (F := Ideal) a1 (ix3 b i k) = a1 (ix2 b i) :=
  (bcast_col_feat (val_main_v40 (F := Ideal) a1) b i k).trans (bcast_col a1 b i 0)
theorem v83_at (a1 : (⟨S128x512, .f32⟩ : BufTy).Contents (Elt Ideal)) (b : Fin 128) (i : Fin 512) (k : Fin 128) : val_main_v83 (F := Ideal) a1 (ix3 b i k) = a1 (ix2 b i) :=
  (bcast_col_feat (val_main_v40 (F := Ideal) a1) b i k).trans (bcast_col a1 b i 0)
theorem v105_at (a1 : (⟨S128x512, .f32⟩ : BufTy).Contents (Elt Ideal)) (b : Fin 128) (i : Fin 512) (k : Fin 128) : val_main_v105 (F := Ideal) a1 (ix3 b i k) = a1 (ix2 b i) :=
  (bcast_col_feat (val_main_v40 (F := Ideal) a1) b i k).trans (bcast_col a1 b i 0)
theorem v107_at (a1 : (⟨S128x512, .f32⟩ : BufTy).Contents (Elt Ideal)) (b : Fin 128) (i : Fin 512) (k : Fin 128) : val_main_v107 (F := Ideal) a1 (ix3 b i k) = a1 (ix2 b i) :=
  (bcast_col_feat (val_main_v40 (F := Ideal) a1) b i k).trans (bcast_col a1 b i 0)

/-! ## The softmax's row maximum and row sum, over the columns -/

theorem v29_at (a0 : (⟨S128x512x8, .f32⟩ : BufTy).Contents (Elt Ideal)) (a1 : (⟨S128x512, .f32⟩ : BufTy).Contents (Elt Ideal)) (b : Fin 128) (i : Fin 512) :
    val_main_v29 (F := Ideal) a0 a1 (ix2 b i) = (Finset.univ : Finset (Fin 512)).fold max (Ideal.ofBits .f32 0xFF800000#32) (fun j => val_main_v28 (F := Ideal) a0 a1 (ix3 b i j)) :=
  (reduce_max_row (val_main_v28 (F := Ideal) a0 a1) (val_main_cst_4 (F := Ideal)) b i).trans rfl
theorem v33_at (a0 : (⟨S128x512x8, .f32⟩ : BufTy).Contents (Elt Ideal)) (a1 : (⟨S128x512, .f32⟩ : BufTy).Contents (Elt Ideal)) (b : Fin 128) (i j : Fin 512) : val_main_v33 (F := Ideal) a0 a1 (ix3 b i j) = val_main_v31 (F := Ideal) a0 a1 (ix2 b i) :=
  (bcast_col_sq (val_main_v32 (F := Ideal) a0 a1) b i j).trans (bcast_col (val_main_v31 (F := Ideal) a0 a1) b i 0)
theorem v38_at (a0 : (⟨S128x512x8, .f32⟩ : BufTy).Contents (Elt Ideal)) (a1 : (⟨S128x512, .f32⟩ : BufTy).Contents (Elt Ideal)) (b : Fin 128) (i j : Fin 512) : val_main_v38 (F := Ideal) a0 a1 (ix3 b i j) = val_main_v36 (F := Ideal) a0 a1 (ix2 b i) :=
  (bcast_col_sq (val_main_v37 (F := Ideal) a0 a1) b i j).trans (bcast_col (val_main_v36 (F := Ideal) a0 a1) b i 0)

/-! ## The rounds' weights: slab `t` of each stacked array -/

theorem v42_at (a6 : (⟨S3x128x128, .f32⟩ : BufTy).Contents (Elt Ideal)) (p q : Fin 128) : val_main_v42 (F := Ideal) a6 (ix2 p q) = a6 (ix3 0 p q) :=
  (shapeCast_1ab_ab_apply (val_main_v41 (F := Ideal) a6) _ p q).trans (slice_Wm0 a6 p q)
theorem v64_at (a6 : (⟨S3x128x128, .f32⟩ : BufTy).Contents (Elt Ideal)) (p q : Fin 128) : val_main_v64 (F := Ideal) a6 (ix2 p q) = a6 (ix3 1 p q) :=
  (shapeCast_1ab_ab_apply (val_main_v63 (F := Ideal) a6) _ p q).trans (slice_Wm1 a6 p q)
theorem v86_at (a6 : (⟨S3x128x128, .f32⟩ : BufTy).Contents (Elt Ideal)) (p q : Fin 128) : val_main_v86 (F := Ideal) a6 (ix2 p q) = a6 (ix3 2 p q) :=
  (shapeCast_1ab_ab_apply (val_main_v85 (F := Ideal) a6) _ p q).trans (slice_Wm2 a6 p q)
theorem v53_at (a8 : (⟨S3x256x128, .f32⟩ : BufTy).Contents (Elt Ideal)) (p : Fin 256) (q : Fin 128) : val_main_v53 (F := Ideal) a8 (ix2 p q) = a8 (ix3 0 p q) :=
  (shapeCast_1ab_ab_apply (val_main_v52 (F := Ideal) a8) _ p q).trans (slice_Wu0 a8 p q)
theorem v75_at (a8 : (⟨S3x256x128, .f32⟩ : BufTy).Contents (Elt Ideal)) (p : Fin 256) (q : Fin 128) : val_main_v75 (F := Ideal) a8 (ix2 p q) = a8 (ix3 1 p q) :=
  (shapeCast_1ab_ab_apply (val_main_v74 (F := Ideal) a8) _ p q).trans (slice_Wu1 a8 p q)
theorem v97_at (a8 : (⟨S3x256x128, .f32⟩ : BufTy).Contents (Elt Ideal)) (p : Fin 256) (q : Fin 128) : val_main_v97 (F := Ideal) a8 (ix2 p q) = a8 (ix3 2 p q) :=
  (shapeCast_1ab_ab_apply (val_main_v96 (F := Ideal) a8) _ p q).trans (slice_Wu2 a8 p q)

/-! ## The joins along the feature axis -/

theorem v51_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (b : Fin 128) (i : Fin 512) (q : Fin 256) :
    val_main_v51 (F := Ideal) a0 a1 a2 a3 a4 a5 a6 a7 (ix3 b i q) = cat (fun a c => val_main_v9 (F := Ideal) a0 a2 a3 a4 a5 (ix3 b a c)) (fun a c => val_main_v50 (F := Ideal) a0 a1 a2 a3 a4 a5 a6 a7 (ix3 b a c)) i q :=
  cat_apply _ _ b i q
theorem v73_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (q : Fin 256) :
    val_main_v73 (F := Ideal) a0 a1 a2 a3 a4 a5 a6 a7 a8 a9 (ix3 b i q) = cat (fun a c => val_main_v62 (F := Ideal) a0 a1 a2 a3 a4 a5 a6 a7 a8 a9 (ix3 b a c)) (fun a c => val_main_v72 (F := Ideal) a0 a1 a2 a3 a4 a5 a6 a7 a8 a9 (ix3 b a c)) i q :=
  cat_apply _ _ b i q
theorem v95_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (q : Fin 256) :
    val_main_v95 (F := Ideal) a0 a1 a2 a3 a4 a5 a6 a7 a8 a9 (ix3 b i q) = cat (fun a c => val_main_v84 (F := Ideal) a0 a1 a2 a3 a4 a5 a6 a7 a8 a9 (ix3 b a c)) (fun a c => val_main_v94 (F := Ideal) a0 a1 a2 a3 a4 a5 a6 a7 a8 a9 (ix3 b a c)) i q :=
  cat_apply _ _ b i q

end Cert.Nmp.R

end
-- ==== Proof.RefDots.lean ====
/-
  The reference's matrix products and float sums, read at explicit coordinates: a `dot_general` at `(b, i, k)` is
  the sum over its one contracted coordinate of the operands' products (the batch coordinate `b`, where the
  product has one, is shared), and a sum over an axis is its initial value plus the sum along that axis.
-/
import proofs.«179744_j58248346468777_1_alg».proof.Proof.RefRead
import proofs.«179744_j58248346468777_1_alg».proof.Proof.Inputs
import proofs.«179744_j58248346468777_1_alg».proof.Proof.LibRank2
import Idealize.ShloMosaic.PureOps.Reduce

noncomputable section

open scoped BigOperators

namespace Cert.Nmp.R

open Idealize.ShloMosaic Idealize.ShloMosaic.ValueIdx Cert.ReferenceIdeal Cert.ReferenceIdeal.Gen Cert.ReferenceIdeal.PRead Cert.Nmp Cert.Lib2

/-! ## The reference's products and sums, read at coordinates -/

theorem v0_at (a0 : (⟨S128x512x8, .f32⟩ : BufTy).Contents (Elt Ideal)) (a2 : (⟨S8x128, .f32⟩ : BufTy).Contents (Elt Ideal)) (b : Fin 128) (i : Fin 512) (k : Fin 128) :
    val_main_v0 (F := Ideal) a0 a2 (ix3 b i k) = ∑ f : Fin 8, a0 (ix3 b i f) * a2 (ix2 f k) := by
  rw [val_main_v0_apply]
  refine Finset.sum_congr rfl fun f _ => ?_
  have el : lidx_main_v0 (ix3 b i k) f = ix3 b i f :=
    funext fun a => Fin.ext (by match a with | ⟨0, _⟩ => rfl | ⟨1, _⟩ => rfl | ⟨2, _⟩ => rfl)
  have er : ridx_main_v0 (ix3 b i k) f = ix2 f k :=
    funext fun a => Fin.ext (by match a with | ⟨0, _⟩ => rfl | ⟨1, _⟩ => rfl)
  rw [el, er]

theorem v5_at (a0 : (⟨S128x512x8, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (b : Fin 128) (i : Fin 512) (k : Fin 128) :
    val_main_v5 (F := Ideal) a0 a2 a3 a4 (ix3 b i k) = ∑ j : Fin 128, val_main_v4 (F := Ideal) a0 a2 a3 (ix3 b i j) * a4 (ix2 j k) := by
  rw [val_main_v5_apply]
  refine Finset.sum_congr rfl fun j _ => ?_
  have el : lidx_main_v5 (ix3 b i k) j = ix3 b i j :=
    funext fun a => Fin.ext (by match a with | ⟨0, _⟩ => rfl | ⟨1, _⟩ => rfl | ⟨2, _⟩ => rfl)
  have er : ridx_main_v5 (ix3 b i k) j = ix2 j k :=
    funext fun a => Fin.ext (by match a with | ⟨0, _⟩ => rfl | ⟨1, _⟩ => rfl)
  rw [el, er]

theorem v11_at (a0 : (⟨S128x512x8, .f32⟩ : BufTy).Contents (Elt Ideal)) (b : Fin 128) (i : Fin 512) :
    val_main_v11 (F := Ideal) a0 (ix2 b i) = (val_main_cst (F := Ideal)) (Shape.Idx.first h_S_) + ∑ f : Fin 8, val_main_v10 (F := Ideal) a0 (ix3 b i f) := by
  rw [val_main_v11_apply]
  refine congrArg _ (Finset.sum_congr rfl fun f _ => ?_)
  rw [show idx_main_v11 (ix2 b i) f = ix3 b i f from
    funext fun a => Fin.ext (by match a with | ⟨0, _⟩ => rfl | ⟨1, _⟩ => rfl | ⟨2, _⟩ => rfl)]

theorem v17_at (a0 : (⟨S128x512x8, .f32⟩ : BufTy).Contents (Elt Ideal)) (b : Fin 128) (i j : Fin 512) :
    val_main_v17 (F := Ideal) a0 (ix3 b i j) = ∑ f : Fin 8, a0 (ix3 b i f) * a0 (ix3 b j f) := by
  rw [val_main_v17_apply]
  refine Finset.sum_congr rfl fun f _ => ?_
  have el : lidx_main_v17 (ix3 b i j) f = ix3 b i f :=
    funext fun a => Fin.ext (by match a with | ⟨0, _⟩ => rfl | ⟨1, _⟩ => rfl | ⟨2, _⟩ => rfl)
  have er : ridx_main_v17 (ix3 b i j) f = ix3 b j f :=
    funext fun a => Fin.ext (by match a with | ⟨0, _⟩ => rfl | ⟨1, _⟩ => rfl | ⟨2, _⟩ => rfl)
  rw [el, er]

theorem v36_at (a0 : (⟨S128x512x8, .f32⟩ : BufTy).Contents (Elt Ideal)) (a1 : (⟨S128x512, .f32⟩ : BufTy).Contents (Elt Ideal)) (b : Fin 128) (i : Fin 512) :
    val_main_v36 (F := Ideal) a0 a1 (ix2 b i) = (val_main_cst_6 (F := Ideal)) (Shape.Idx.first h_S_) + ∑ j : Fin 512, val_main_v35 (F := Ideal) a0 a1 (ix3 b i j) := by
  rw [val_main_v36_apply]
  refine congrArg _ (Finset.sum_congr rfl fun j _ => ?_)
  rw [show idx_main_v36 (ix2 b i) j = ix3 b i j from
    funext fun a => Fin.ext (by match a with | ⟨0, _⟩ => rfl | ⟨1, _⟩ => rfl | ⟨2, _⟩ => rfl)]

theorem v43_at (a0 : (⟨S128x512x8, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (b : Fin 128) (i : Fin 512) (k : Fin 128) :
    val_main_v43 (F := Ideal) a0 a2 a3 a4 a5 a6 (ix3 b i k) = ∑ j : Fin 128, val_main_v9 (F := Ideal) a0 a2 a3 a4 a5 (ix3 b i j) * val_main_v42 (F := Ideal) a6 (ix2 j k) := by
  rw [val_main_v43_apply]
  refine Finset.sum_congr rfl fun j _ => ?_
  have el : lidx_main_v43 (ix3 b i k) j = ix3 b i j :=
    funext fun a => Fin.ext (by match a with | ⟨0, _⟩ => rfl | ⟨1, _⟩ => rfl | ⟨2, _⟩ => rfl)
  have er : ridx_main_v43 (ix3 b i k) j = ix2 j k :=
    funext fun a => Fin.ext (by match a with | ⟨0, _⟩ => rfl | ⟨1, _⟩ => rfl)
  rw [el, er]

theorem v50_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (b : Fin 128) (i : Fin 512) (k : Fin 128) :
    val_main_v50 (F := Ideal) a0 a1 a2 a3 a4 a5 a6 a7 (ix3 b i k) = ∑ j : Fin 512, val_main_v39 (F := Ideal) a0 a1 (ix3 b i j) * val_main_v49 (F := Ideal) a0 a2 a3 a4 a5 a6 a7 (ix3 b j k) := by
  rw [val_main_v50_apply]
  refine Finset.sum_congr rfl fun j _ => ?_
  have el : lidx_main_v50 (ix3 b i k) j = ix3 b i j :=
    funext fun a => Fin.ext (by match a with | ⟨0, _⟩ => rfl | ⟨1, _⟩ => rfl | ⟨2, _⟩ => rfl)
  have er : ridx_main_v50 (ix3 b i k) j = ix3 b j k :=
    funext fun a => Fin.ext (by match a with | ⟨0, _⟩ => rfl | ⟨1, _⟩ => rfl | ⟨2, _⟩ => rfl)
  rw [el, er]

theorem v54_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (b : Fin 128) (i : Fin 512) (k : Fin 128) :
    val_main_v54 (F := Ideal) a0 a1 a2 a3 a4 a5 a6 a7 a8 (ix3 b i k) = ∑ q : Fin 256, val_main_v51 (F := Ideal) a0 a1 a2 a3 a4 a5 a6 a7 (ix3 b i q) * val_main_v53 (F := Ideal) a8 (ix2 q k) := by
  rw [val_main_v54_apply]
  refine Finset.sum_congr rfl fun q _ => ?_
  have el : lidx_main_v54 (ix3 b i k) q = ix3 b i q :=
    funext fun a => Fin.ext (by match a with | ⟨0, _⟩ => rfl | ⟨1, _⟩ => rfl | ⟨2, _⟩ => rfl)
  have er : ridx_main_v54 (ix3 b i k) q = ix2 q k :=
    funext fun a => Fin.ext (by match a with | ⟨0, _⟩ => rfl | ⟨1, _⟩ => rfl)
  rw [el, er]

theorem v65_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v65 (F := Ideal) a0 a1 a2 a3 a4 a5 a6 a7 a8 a9 (ix3 b i k) = ∑ j : Fin 128, val_main_v62 (F := Ideal) a0 a1 a2 a3 a4 a5 a6 a7 a8 a9 (ix3 b i j) * val_main_v64 (F := Ideal) a6 (ix2 j k) := by
  rw [val_main_v65_apply]
  refine Finset.sum_congr rfl fun j _ => ?_
  have el : lidx_main_v65 (ix3 b i k) j = ix3 b i j :=
    funext fun a => Fin.ext (by match a with | ⟨0, _⟩ => rfl | ⟨1, _⟩ => rfl | ⟨2, _⟩ => rfl)
  have er : ridx_main_v65 (ix3 b i k) j = ix2 j k :=
    funext fun a => Fin.ext (by match a with | ⟨0, _⟩ => rfl | ⟨1, _⟩ => rfl)
  rw [el, er]

theorem v72_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v72 (F := Ideal) a0 a1 a2 a3 a4 a5 a6 a7 a8 a9 (ix3 b i k) = ∑ j : Fin 512, val_main_v39 (F := Ideal) a0 a1 (ix3 b i j) * val_main_v71 (F := Ideal) a0 a1 a2 a3 a4 a5 a6 a7 a8 a9 (ix3 b j k) := by
  rw [val_main_v72_apply]
  refine Finset.sum_congr rfl fun j _ => ?_
  have el : lidx_main_v72 (ix3 b i k) j = ix3 b i j :=
    funext fun a => Fin.ext (by match a with | ⟨0, _⟩ => rfl | ⟨1, _⟩ => rfl | ⟨2, _⟩ => rfl)
  have er : ridx_main_v72 (ix3 b i k) j = ix3 b j k :=
    funext fun a => Fin.ext (by match a with | ⟨0, _⟩ => rfl | ⟨1, _⟩ => rfl | ⟨2, _⟩ => rfl)
  rw [el, er]

theorem v76_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v76 (F := Ideal) a0 a1 a2 a3 a4 a5 a6 a7 a8 a9 (ix3 b i k) = ∑ q : Fin 256, val_main_v73 (F := Ideal) a0 a1 a2 a3 a4 a5 a6 a7 a8 a9 (ix3 b i q) * val_main_v75 (F := Ideal) a8 (ix2 q k) := by
  rw [val_main_v76_apply]
  refine Finset.sum_congr rfl fun q _ => ?_
  have el : lidx_main_v76 (ix3 b i k) q = ix3 b i q :=
    funext fun a => Fin.ext (by match a with | ⟨0, _⟩ => rfl | ⟨1, _⟩ => rfl | ⟨2, _⟩ => rfl)
  have er : ridx_main_v76 (ix3 b i k) q = ix2 q k :=
    funext fun a => Fin.ext (by match a with | ⟨0, _⟩ => rfl | ⟨1, _⟩ => rfl)
  rw [el, er]

theorem v87_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v87 (F := Ideal) a0 a1 a2 a3 a4 a5 a6 a7 a8 a9 (ix3 b i k) = ∑ j : Fin 128, val_main_v84 (F := Ideal) a0 a1 a2 a3 a4 a5 a6 a7 a8 a9 (ix3 b i j) * val_main_v86 (F := Ideal) a6 (ix2 j k) := by
  rw [val_main_v87_apply]
  refine Finset.sum_congr rfl fun j _ => ?_
  have el : lidx_main_v87 (ix3 b i k) j = ix3 b i j :=
    funext fun a => Fin.ext (by match a with | ⟨0, _⟩ => rfl | ⟨1, _⟩ => rfl | ⟨2, _⟩ => rfl)
  have er : ridx_main_v87 (ix3 b i k) j = ix2 j k :=
    funext fun a => Fin.ext (by match a with | ⟨0, _⟩ => rfl | ⟨1, _⟩ => rfl)
  rw [el, er]

theorem v94_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v94 (F := Ideal) a0 a1 a2 a3 a4 a5 a6 a7 a8 a9 (ix3 b i k) = ∑ j : Fin 512, val_main_v39 (F := Ideal) a0 a1 (ix3 b i j) * val_main_v93 (F := Ideal) a0 a1 a2 a3 a4 a5 a6 a7 a8 a9 (ix3 b j k) := by
  rw [val_main_v94_apply]
  refine Finset.sum_congr rfl fun j _ => ?_
  have el : lidx_main_v94 (ix3 b i k) j = ix3 b i j :=
    funext fun a => Fin.ext (by match a with | ⟨0, _⟩ => rfl | ⟨1, _⟩ => rfl | ⟨2, _⟩ => rfl)
  have er : ridx_main_v94 (ix3 b i k) j = ix3 b j k :=
    funext fun a => Fin.ext (by match a with | ⟨0, _⟩ => rfl | ⟨1, _⟩ => rfl | ⟨2, _⟩ => rfl)
  rw [el, er]

theorem v98_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v98 (F := Ideal) a0 a1 a2 a3 a4 a5 a6 a7 a8 a9 (ix3 b i k) = ∑ q : Fin 256, val_main_v95 (F := Ideal) a0 a1 a2 a3 a4 a5 a6 a7 a8 a9 (ix3 b i q) * val_main_v97 (F := Ideal) a8 (ix2 q k) := by
  rw [val_main_v98_apply]
  refine Finset.sum_congr rfl fun q _ => ?_
  have el : lidx_main_v98 (ix3 b i k) q = ix3 b i q :=
    funext fun a => Fin.ext (by match a with | ⟨0, _⟩ => rfl | ⟨1, _⟩ => rfl | ⟨2, _⟩ => rfl)
  have er : ridx_main_v98 (ix3 b i k) q = ix2 q k :=
    funext fun a => Fin.ext (by match a with | ⟨0, _⟩ => rfl | ⟨1, _⟩ => rfl)
  rw [el, er]

theorem v109_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b k : Fin 128) :
    val_main_v109 (F := Ideal) a0 a1 a2 a3 a4 a5 a6 a7 a8 a9 (ix2 b k) = (val_main_cst_7 (F := Ideal)) (Shape.Idx.first h_S_) + ∑ i : Fin 512, val_main_v108 (F := Ideal) a0 a1 a2 a3 a4 a5 a6 a7 a8 a9 (ix3 b i k) := by
  rw [val_main_v109_apply]
  refine congrArg _ (Finset.sum_congr rfl fun i _ => ?_)
  rw [show idx_main_v109 (ix2 b k) i = ix3 b i k from
    funext fun a => Fin.ext (by match a with | ⟨0, _⟩ => rfl | ⟨1, _⟩ => rfl | ⟨2, _⟩ => rfl)]

theorem v110_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (a10 : (⟨S128x128, .f32⟩ : BufTy).Contents (Elt Ideal)) (b k : Fin 128) :
    val_main_v110 (F := Ideal) a0 a1 a2 a3 a4 a5 a6 a7 a8 a9 a10 (ix2 b k) = ∑ l : Fin 128, val_main_v109 (F := Ideal) a0 a1 a2 a3 a4 a5 a6 a7 a8 a9 (ix2 b l) * a10 (ix2 l k) := by
  rw [val_main_v110_apply]
  refine Finset.sum_congr rfl fun l _ => ?_
  have el : lidx_main_v110 (ix2 b k) l = ix2 b l :=
    funext fun a => Fin.ext (by match a with | ⟨0, _⟩ => rfl | ⟨1, _⟩ => rfl)
  have er : ridx_main_v110 (ix2 b k) l = ix2 l k :=
    funext fun a => Fin.ext (by match a with | ⟨0, _⟩ => rfl | ⟨1, _⟩ => rfl)
  rw [el, er]

theorem v115_at (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (b k : Fin 128) :
    val_main_v115 (F := Ideal) a0 a1 a2 a3 a4 a5 a6 a7 a8 a9 a10 a11 a12 (ix2 b k) = ∑ j : Fin 128, val_main_v114 (F := Ideal) a0 a1 a2 a3 a4 a5 a6 a7 a8 a9 a10 a11 (ix2 b j) * a12 (ix2 j k) := by
  rw [val_main_v115_apply]
  refine Finset.sum_congr rfl fun j _ => ?_
  have el : lidx_main_v115 (ix2 b k) j = ix2 b j :=
    funext fun a => Fin.ext (by match a with | ⟨0, _⟩ => rfl | ⟨1, _⟩ => rfl)
  have er : ridx_main_v115 (ix2 b k) j = ix2 j k :=
    funext fun a => Fin.ext (by match a with | ⟨0, _⟩ => rfl | ⟨1, _⟩ => rfl)
  rw [el, er]

end Cert.Nmp.R

end
-- ==== Proof.RefStages.lean ====
/-
  The reference, stage by stage, is the network of Spec.lean.

  At batch element `b`, each stage of the reference, read at coordinates, is the specification's formula over the
  arrays' entries at `b`: the embedding, the negated squared distances (the host's negation is `-`), the softmax
  (its row maximum a fold of `max` from -∞, its sums starting from the zero word: `0 + s = s`), the three rounds
  of message passing, the pooling and the readout.
-/
import proofs.«179744_j58248346468777_1_alg».proof.Proof.RefAt
import proofs.«179744_j58248346468777_1_alg».proof.Proof.RefDots

noncomputable section

open scoped BigOperators

namespace Cert.Nmp.R

open Idealize.ShloMosaic Idealize.ShloMosaic.ValueIdx Cert.ReferenceIdeal Cert.ReferenceIdeal.Gen Cert.ReferenceIdeal.PRead Cert.Nmp Cert.Lib2

/-- The zero word a host sum starts from contributes nothing. -/
theorem zero_word_add (s : EReal) : FloatOps.ofBits (F := Ideal) .f32 0x00000000#32 + s = s := by
  rw [Ideal.ofBits_def, Ideal.ofBits_zero_f32, zero_add]

/-! ## The embedding -/

theorem v9_spec (a0 : (⟨S128x512x8, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (b : Fin 128) (i : Fin 512) (k : Fin 128) :
    val_main_v9 (F := Ideal) a0 a2 a3 a4 a5 (ix3 b i k) = (denseRelu (denseRelu (fun i f => a0 (ix3 b i f)) (m2 a2) (v1 a3)) (m2 a4) (v1 a5)) i k := by
  simp only [val_main_v9_apply, val_main_v8_apply, val_main_v4_apply, val_main_v3_apply, v5_at, v7_at, call1_v0_at, v0_at, v2_at, call0_v0_at]
  rfl

/-! ## The adjacency -/

theorem v21_spec (a0 : (⟨S128x512x8, .f32⟩ : BufTy).Contents (Elt Ideal)) (b : Fin 128) (i j : Fin 512) :
    val_main_v21 (F := Ideal) a0 (ix3 b i j) = negDist (fun i f => a0 (ix3 b i f)) i j := by
  simp only [val_main_v21_apply, val_main_v20_apply, val_main_v19_apply, val_main_v16_apply, val_main_v10_apply, v14_at, v15_at, v11_at, v17_at, v18_at, val_main_cst_apply, zero_word_add]
  rfl

theorem v28_spec (a0 : (⟨S128x512x8, .f32⟩ : BufTy).Contents (Elt Ideal)) (a1 : (⟨S128x512, .f32⟩ : BufTy).Contents (Elt Ideal)) (b : Fin 128) (i j : Fin 512) :
    val_main_v28 (F := Ideal) a0 a1 (ix3 b i j) = logit (negDist (fun i f => a0 (ix3 b i f))) (fun j => a1 (ix2 b j)) i j := by
  simp only [val_main_v28_apply, val_main_v26_apply, val_main_v25_apply, val_main_v24_apply, v21_spec, v27_at, v22_at, v23_at, call2_v0_at, call2_v1_at]
  rfl

theorem v31_spec (a0 : (⟨S128x512x8, .f32⟩ : BufTy).Contents (Elt Ideal)) (a1 : (⟨S128x512, .f32⟩ : BufTy).Contents (Elt Ideal)) (b : Fin 128) (i : Fin 512) :
    val_main_v31 (F := Ideal) a0 a1 (ix2 b i) = rowMax (negDist (fun i f => a0 (ix3 b i f))) (fun j => a1 (ix2 b j)) i := by
  rw [val_main_v31_apply, v30_at, v29_at]
  rw [show (fun j => val_main_v28 (F := Ideal) a0 a1 (ix3 b i j)) = fun j => logit (negDist (fun i f => a0 (ix3 b i f))) (fun j => a1 (ix2 b j)) i j from
    funext fun j => v28_spec a0 a1 b i j]
  rfl

theorem v35_spec (a0 : (⟨S128x512x8, .f32⟩ : BufTy).Contents (Elt Ideal)) (a1 : (⟨S128x512, .f32⟩ : BufTy).Contents (Elt Ideal)) (b : Fin 128) (i j : Fin 512) :
    val_main_v35 (F := Ideal) a0 a1 (ix3 b i j) = expo (negDist (fun i f => a0 (ix3 b i f))) (fun j => a1 (ix2 b j)) i j := by
  simp only [val_main_v35_apply, val_main_v34_apply, v28_spec, v33_at, v31_spec]
  rfl

theorem v39_spec (a0 : (⟨S128x512x8, .f32⟩ : BufTy).Contents (Elt Ideal)) (a1 : (⟨S128x512, .f32⟩ : BufTy).Contents (Elt Ideal)) (b : Fin 128) (i j : Fin 512) :
    val_main_v39 (F := Ideal) a0 a1 (ix3 b i j) = (adj (negDist (fun i f => a0 (ix3 b i f))) (fun j => a1 (ix2 b j))) i j := by
  simp only [val_main_v39_apply, v35_spec, v38_at, v36_at, val_main_cst_6_apply, zero_word_add]
  rfl

/-! ## The three rounds of message passing -/

theorem v62_spec (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v62 (F := Ideal) a0 a1 a2 a3 a4 a5 a6 a7 a8 a9 (ix3 b i k) = (update (adj (negDist (fun i f => a0 (ix3 b i f))) (fun j => a1 (ix2 b j))) (fun j => a1 (ix2 b j)) (fun p q => a6 (ix3 0 p q)) (fun p => a7 (ix2 0 p)) (fun p q => a8 (ix3 0 p q)) (fun p => a9 (ix2 0 p)) (denseRelu (denseRelu (fun i f => a0 (ix3 b i f)) (m2 a2) (v1 a3)) (m2 a4) (v1 a5))) i k := by
  simp only [val_main_v62_apply, val_main_v60_apply, val_main_v59_apply, val_main_v49_apply, val_main_v48_apply, v61_at, call4_v0_at, v58_at, v54_at, v51_at, v53_at,
    v50_at, v39_spec, call3_v0_at, v47_at, v43_at, v42_at, v9_spec]
  rfl

theorem v84_spec (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v84 (F := Ideal) a0 a1 a2 a3 a4 a5 a6 a7 a8 a9 (ix3 b i k) = (update (adj (negDist (fun i f => a0 (ix3 b i f))) (fun j => a1 (ix2 b j))) (fun j => a1 (ix2 b j)) (fun p q => a6 (ix3 1 p q)) (fun p => a7 (ix2 1 p)) (fun p q => a8 (ix3 1 p q)) (fun p => a9 (ix2 1 p)) (update (adj (negDist (fun i f => a0 (ix3 b i f))) (fun j => a1 (ix2 b j))) (fun j => a1 (ix2 b j)) (fun p q => a6 (ix3 0 p q)) (fun p => a7 (ix2 0 p)) (fun p q => a8 (ix3 0 p q)) (fun p => a9 (ix2 0 p)) (denseRelu (denseRelu (fun i f => a0 (ix3 b i f)) (m2 a2) (v1 a3)) (m2 a4) (v1 a5)))) i k := by
  simp only [val_main_v84_apply, val_main_v82_apply, val_main_v81_apply, val_main_v71_apply, val_main_v70_apply, v83_at, call6_v0_at, v80_at, v76_at, v73_at, v75_at,
    v72_at, v39_spec, call5_v0_at, v69_at, v65_at, v64_at, v62_spec]
  rfl

theorem v106_spec (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (b : Fin 128) (i : Fin 512) (k : Fin 128) :
    val_main_v106 (F := Ideal) a0 a1 a2 a3 a4 a5 a6 a7 a8 a9 (ix3 b i k) = (update (adj (negDist (fun i f => a0 (ix3 b i f))) (fun j => a1 (ix2 b j))) (fun j => a1 (ix2 b j)) (fun p q => a6 (ix3 2 p q)) (fun p => a7 (ix2 2 p)) (fun p q => a8 (ix3 2 p q)) (fun p => a9 (ix2 2 p)) (update (adj (negDist (fun i f => a0 (ix3 b i f))) (fun j => a1 (ix2 b j))) (fun j => a1 (ix2 b j)) (fun p q => a6 (ix3 1 p q)) (fun p => a7 (ix2 1 p)) (fun p q => a8 (ix3 1 p q)) (fun p => a9 (ix2 1 p)) (update (adj (negDist (fun i f => a0 (ix3 b i f))) (fun j => a1 (ix2 b j))) (fun j => a1 (ix2 b j)) (fun p q => a6 (ix3 0 p q)) (fun p => a7 (ix2 0 p)) (fun p q => a8 (ix3 0 p q)) (fun p => a9 (ix2 0 p)) (denseRelu (denseRelu (fun i f => a0 (ix3 b i f)) (m2 a2) (v1 a3)) (m2 a4) (v1 a5))))) i k := by
  simp only [val_main_v106_apply, val_main_v104_apply, val_main_v103_apply, val_main_v93_apply, val_main_v92_apply, v105_at, call8_v0_at, v102_at, v98_at, v95_at, v97_at,
    v94_at, v39_spec, call7_v0_at, v91_at, v87_at, v86_at, v84_spec]
  rfl

/-! ## The pooling and the readout -/

/-- The reference's result at `(b, k)` is the network's output for batch element `b`, feature `k`. -/
theorem v118_spec (a0 : (⟨S128x512x8, .f32⟩ : BufTy).Contents (Elt Ideal)) (a1 : (⟨S128x512, .f32⟩ : BufTy).Contents (Elt Ideal)) (a2 : (⟨S8x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S3x128x128, .f32⟩ : BufTy).Contents (Elt Ideal)) (a7 : (⟨S3x128, .f32⟩ : BufTy).Contents (Elt Ideal)) (a8 : (⟨S3x256x128, .f32⟩ : BufTy).Contents (Elt Ideal)) (a9 : (⟨S3x128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (b k : Fin 128) :
    val_main_v118 (F := Ideal) a0 a1 a2 a3 a4 a5 a6 a7 a8 a9 a10 a11 a12 a13 (ix2 b k) = (ofArrays a0 a1 a2 a3 a4 a5 a6 a7 a8 a9 a10 a11 a12 a13 b).out k := by
  simp only [val_main_v118_apply, val_main_v114_apply, val_main_v113_apply, val_main_v108_apply, v117_at, v115_at, call9_v0_at, v112_at, v110_at, v109_at, v107_at, v106_spec,
    val_main_cst_7_apply, zero_word_add]
  rfl

end Cert.Nmp.R

end
-- ==== Proof.lean ====
/-
  The certificate: a fused Pallas kernel for a three-round message-passing network over 128 batch elements of 512
  nodes, against its jnp reference, as equal functions of the arguments over the extended reals.

  For one batch element the network embeds the nodes by two dense layers with a rectifier, builds a fixed adjacency
  as the row-wise softmax of the negated squared feature distances (masked columns shifted by -1e9), runs three rounds
  of message passing (message, aggregation through the adjacency, join with the node state, dense layer, rectifier,
  mask), pools the nodes by a masked sum and reads out through two dense layers (Proof/Spec.lean).

  The kernel runs one grid point per batch element: point `t` stages rows `(t, ·, ·)` of the features, row `t` of the
  mask and the weights whole, and stores row `t` of its output. Read at the ideal instance, where a change of float
  format is the identity and a matrix-unit product into a zero accumulator is the textbook sum, its body computes the
  specification on those blocks (Proof/KernelStages.lean, Proof/KernelOut.lean); its 128 output rows tile the result
  array, which the closing reshape reads (Proof/KernelRun.lean). The reference computes the same stages on whole
  batched arrays; read at batch element `b`, each stage is the specification on the arrays' entries at `b`
  (Proof/RefDots.lean, Proof/RefLayout.lean, Proof/RefAt.lean, Proof/RefStages.lean). The two programs apply the same
  operations in the same order to the same entries — the laws used are only that a finite sum in the extended reals
  does not depend on how it is indexed, `0 - y = -y` and `0 + s = s` — so the precondition (finite inputs) is not needed
  for the values. The ideal pass rewrote nothing, so the kernel's idealization is its own text.
-/
import proofs.«179744_j58248346468777_1_alg».proof.Defs
import proofs.«179744_j58248346468777_1_alg».proof.Proof.Gen.Kernel
import proofs.«179744_j58248346468777_1_alg».proof.Proof.Gen.Kernel.Skeleton
import proofs.«179744_j58248346468777_1_alg».proof.Proof.Gen.Kernel.Launch
import proofs.«179744_j58248346468777_1_alg».proof.Proof.Gen.Kernel.Points
import proofs.«179744_j58248346468777_1_alg».proof.Proof.Gen.Kernel.Frame
import proofs.«179744_j58248346468777_1_alg».proof.Proof.Gen.KernelIdeal
import proofs.«179744_j58248346468777_1_alg».proof.Proof.Gen.KernelIdeal.Skeleton
import proofs.«179744_j58248346468777_1_alg».proof.Proof.Gen.KernelIdeal.Launch
import proofs.«179744_j58248346468777_1_alg».proof.Proof.Gen.KernelIdeal.Points
import proofs.«179744_j58248346468777_1_alg».proof.Proof.Gen.KernelIdeal.Frame
import proofs.«179744_j58248346468777_1_alg».proof.Proof.Gen.ReferenceIdeal
import proofs.«179744_j58248346468777_1_alg».proof.Proof.Gen.Pre_finite_inputs
import proofs.«179744_j58248346468777_1_alg».proof.Proof.KernelRun
import proofs.«179744_j58248346468777_1_alg».proof.Proof.RefStages
import proofs.«179744_j58248346468777_1_alg».proof.Proof.RefReadEq
import Idealize.ShloMosaic.Adequacy
import Idealize.ShloMosaic.Init

noncomputable section

namespace Cert.Proof

open Idealize.ShloMosaic Idealize.ShloMosaic.ValueIdx Idealize.SL.Sem Cert.Nmp

/-- The kernel as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ideal pass rewrote no operation. -/
theorem preserves : Cert.preserves_Kernel_KernelIdeal := trivial

/-- From memories agreeing on the arguments both programs end with the network's output, batch element by batch
    element: the kernel's rows (its run) and the reference's result at `(b, k)` (its last stage) are one function. -/
theorem algebraic : Cert.algebraic_KernelIdeal_ReferenceIdeal := by
  intro m ρ m' ρ' _ hagree
  refine ⟨fun c => KRun.result m c, KRun.run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v118_eq]
  obtain ⟨h0, h1, h2, h3, h4, h5, h6, h7, h8, h9, h10, h11, h12, h13⟩ := hagree c
  rw [h0, h1, h2, h3, h4, h5, h6, h7, h8, h9, h10, h11, h12, h13]
  funext j
  obtain ⟨p, q, rfl⟩ : ∃ (p q : Fin 128), j = ix2 p q := ⟨j 0, j 1, eq_ix2 j⟩
  exact R.v118_spec _ _ _ _ _ _ _ _ _ _ _ _ _ _ p q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
